-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩

abbrev nBuf : Space → Nat
  | .hbm => 33
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1x1024, .f32⟩
  | .hbm, ⟨11, _⟩ => ⟨S4096x1024, .bf16⟩
  | .hbm, ⟨12, _⟩ => ⟨S1x1024, .f32⟩
  | .hbm, ⟨13, _⟩ => ⟨S4096x1024, .bf16⟩
  | .hbm, ⟨14, _⟩ => ⟨S1x1024, .f32⟩
  | .hbm, ⟨15, _⟩ => ⟨S4096x1024, .bf16⟩
  | .hbm, ⟨16, _⟩ => ⟨S2x2048x16x64, .bf16⟩
  | .hbm, ⟨17, _⟩ => ⟨S2x16x2048x64, .bf16⟩
  | .hbm, ⟨18, _⟩ => ⟨S32x2048x64, .bf16⟩
  | .hbm, ⟨19, _⟩ => ⟨S2x2048x16x64, .bf16⟩
  | .hbm, ⟨20, _⟩ => ⟨S2x16x2048x64, .bf16⟩
  | .hbm, ⟨21, _⟩ => ⟨S32x2048x64, .bf16⟩
  | .hbm, ⟨22, _⟩ => ⟨S2x2048x16x64, .bf16⟩
  | .hbm, ⟨23, _⟩ => ⟨S2x16x2048x64, .bf16⟩
  | .hbm, ⟨24, _⟩ => ⟨S32x2048x64, .bf16⟩
  | .hbm, ⟨25, _⟩ => ⟨S32x2048x64, .bf16⟩
  | .hbm, ⟨26, _⟩ => ⟨S2x16x2048x64, .bf16⟩
  | .hbm, ⟨27, _⟩ => ⟨S2x2048x16x64, .bf16⟩
  | .hbm, ⟨28, _⟩ => ⟨S2x2048x1024, .bf16⟩
  | .hbm, ⟨29, _⟩ => ⟨S4096x1024, .bf16⟩
  | .hbm, ⟨30, _⟩ => ⟨S1x1024, .f32⟩
  | .hbm, ⟨31, _⟩ => ⟨S4096x1024, .f32⟩
  | .hbm, ⟨32, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x512x64, .bf16⟩
  | .local _ .vmem, ⟨19, _⟩ => ⟨S1x512x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x512x64, .bf16⟩
  | .local _ .vmem, ⟨25, _⟩ => ⟨S1x512x64, .bf16⟩
  | .local _ .vmem, ⟨26, _⟩ => ⟨S512x1024, .bf16⟩
  | .local _ .vmem, ⟨27, _⟩ => ⟨S512x1024, .bf16⟩
  | .local _ .vmem, ⟨28, _⟩ => ⟨S1024x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![32, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  shapeCasts_S4096x1024_S2x2048x1024 : S4096x1024.ShapeCasts S2x2048x1024
  dot_S512x1024_S1024x1024_S512x1024_1_1_0_0_n_n_wf : DotDims.WF S512x1024 S1024x1024 S512x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S32x2048x64.size a
  hwx3_0 : ∀ i : grid3.Coords, EltTy.bits .bf16 = 32 ∨ (Rect.block (s := S32x2048x64) S1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S32x2048x64.size a
  hwx3_1 : ∀ i : grid3.Coords, EltTy.bits .bf16 = 32 ∨ (Rect.block (s := S32x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .bf16 = 32 ∨ (Rect.block (s := S32x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x64.size a ≤ S32x2048x64.size a
  hwx3_3 : ∀ i : grid3.Coords, EltTy.bits .bf16 = 32 ∨ (Rect.block (s := S32x2048x64) S1x512x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v20) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v22) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  The mathematics both programs compute, stated once over literal shapes on the extended reals.

  A token array `x : [2, 2048, 1024]` is projected three times by `y = x · Wᵀ + b` (`projG`), each projection is
  split into 16 heads of width 64 (`heads`: the feature axis [1024] read as [16, 64], then the head axis moved in
  front of the token axis), the heads attend without normalisation, `sin (30 · (q · k) / 8)` times the values summed
  over the keys (`refattG`), the heads are merged back (`merge`) and projected once more.  That is `model`.

  The kernel program computes the same thing on flattened arrays: tokens as 4096 rows (`linG`), heads as 32
  batch·head slices (`attG`, with the one scale `3.75 = 30 / 8`), and row-major reshapes in between (`kform`).
-/
import Idealize.ShloMosaic.PureOps.Ideal
import Idealize.ShloMosaic.PureOps.ShapeOps
import Idealize.ShloMosaic.Lib.ValueIdx

noncomputable section

namespace Cert.Spec

open Idealize.ShloMosaic Idealize.ShloMosaic.ValueIdx

/-- tokens by batch: [2, 2048, 1024] -/
abbrev T3 : Shape := ⟨3, ![2, 2048, 1024]⟩
/-- tokens as rows: [4096, 1024] -/
abbrev T2 : Shape := ⟨2, ![4096, 1024]⟩
/-- a weight matrix, stored (out, in): [1024, 1024] -/
abbrev Wm : Shape := ⟨2, ![1024, 1024]⟩
/-- a bias: [1024] -/
abbrev B1 : Shape := ⟨1, ![1024]⟩
/-- a bias as one row: [1, 1024] -/
abbrev B2 : Shape := ⟨2, ![1, 1024]⟩
/-- features split into heads: [2, 2048, 16, 64] -/
abbrev P4 : Shape := ⟨4, ![2, 2048, 16, 64]⟩
/-- heads in front of tokens: [2, 16, 2048, 64] -/
abbrev H4 : Shape := ⟨4, ![2, 16, 2048, 64]⟩
/-- batch·head flattened: [32, 2048, 64] -/
abbrev H3 : Shape := ⟨3, ![32, 2048, 64]⟩

/-- the kernel's one scale, 3.75 -/
def c375 : EReal := Ideal.ofBits .f32 0x40700000#32
/-- the reference's divisor, 8 -/
def c8 : EReal := Ideal.ofBits .f32 0x41000000#32
/-- the reference's frequency, 30 -/
def c30 : EReal := Ideal.ofBits .f32 0x41F00000#32

/-- `x · Wᵀ + b` at row `r`, output feature `e`, on 4096 rows. -/
def linAt (X : T2.Idx → EReal) (W : Wm.Idx → EReal) (b : B2.Idx → EReal) (r : Fin 4096) (e : Fin 1024) : EReal :=
  (∑ d : Fin 1024, X (ix2 r d) * W (ix2 e d)) + b (ix2 (0 : Fin 1) e)

/-- `x · Wᵀ + b` on 4096 rows, as an array. -/
def linG (X : T2.Idx → EReal) (W : Wm.Idx → EReal) (b : B2.Idx → EReal) : T2.Idx → EReal :=
  fun i => linAt X W b ⟨(i 0).val, (i 0).isLt⟩ ⟨(i 1).val, (i 1).isLt⟩

/-- `x · Wᵀ + b` at batch `n`, token `s`, output feature `e`. -/
def projAt (X : T3.Idx → EReal) (W : Wm.Idx → EReal) (b : B1.Idx → EReal) (n : Fin 2) (s : Fin 2048) (e : Fin 1024) : EReal :=
  (∑ d : Fin 1024, X (ix3 n s d) * W (ix2 e d)) + b (ix1 e)

/-- `x · Wᵀ + b` by batch, as an array. -/
def projG (X : T3.Idx → EReal) (W : Wm.Idx → EReal) (b : B1.Idx → EReal) : T3.Idx → EReal :=
  fun i => projAt X W b ⟨(i 0).val, (i 0).isLt⟩ ⟨(i 1).val, (i 1).isLt⟩ ⟨(i 2).val, (i 2).isLt⟩

/-- Unnormalised sine attention of one flattened batch·head `h`, at query `q`, value feature `d`: the kernel's form. -/
def attAt (Q K V : H3.Idx → EReal) (h : Fin 32) (q : Fin 2048) (d : Fin 64) : EReal :=
  ∑ k : Fin 2048, Ideal.sin ((∑ j : Fin 64, Q (ix3 h q j) * K (ix3 h k j)) * c375) * V (ix3 h k d)

def attG (Q K V : H3.Idx → EReal) : H3.Idx → EReal :=
  fun i => attAt Q K V ⟨(i 0).val, (i 0).isLt⟩ ⟨(i 1).val, (i 1).isLt⟩ ⟨(i 2).val, (i 2).isLt⟩

/-- Unnormalised sine attention at batch `n`, head `h`: the reference's form, `sin (30 · ((q · k) / 8))`. -/
def refattAt (Q K V : H4.Idx → EReal) (n : Fin 2) (h : Fin 16) (q : Fin 2048) (d : Fin 64) : EReal :=
  ∑ k : Fin 2048, Ideal.sin (c30 * Ideal.div (∑ j : Fin 64, Q (ix4 n h q j) * K (ix4 n h k j)) c8) * V (ix4 n h k d)

def refattG (Q K V : H4.Idx → EReal) : H4.Idx → EReal :=
  fun i => refattAt Q K V ⟨(i 0).val, (i 0).isLt⟩ ⟨(i 1).val, (i 1).isLt⟩ ⟨(i 2).val, (i 2).isLt⟩ ⟨(i 3).val, (i 3).isLt⟩

theorem hT3P4 : T3.ShapeCasts P4 := by decide
theorem hP4T3 : P4.ShapeCasts T3 := by decide
theorem hT3T2 : T3.ShapeCasts T2 := by decide
theorem hT2T3 : T2.ShapeCasts T3 := by decide
theorem hT2P4 : T2.ShapeCasts P4 := by decide
theorem hH4H3 : H4.ShapeCasts H3 := by decide
theorem hH3H4 : H3.ShapeCasts H4 := by decide
theorem hB1B2 : B1.ShapeCasts B2 := by decide
theorem hP4H4 : P4.Transposes [0, 2, 1, 3] H4 := by decide
theorem hH4P4 : H4.Transposes [0, 2, 1, 3] P4 := by decide

/-- Split the features into heads and move the head axis in front of the tokens. -/
def heads (Y : T3.Idx → EReal) : H4.Idx → EReal := transpose H4 [0, 2, 1, 3] (shapeCast P4 Y hT3P4) hP4H4

/-- Move the tokens back in front of the heads and merge the heads into features. -/
def merge (A : H4.Idx → EReal) : T3.Idx → EReal := shapeCast T3 (transpose P4 [0, 2, 1, 3] A hH4P4) hP4T3

/-- The whole layer, as the reference arranges it. -/
def model (x : T3.Idx → EReal) (Wq : Wm.Idx → EReal) (bq : B1.Idx → EReal) (Wk : Wm.Idx → EReal) (bk : B1.Idx → EReal)
    (Wv : Wm.Idx → EReal) (bv : B1.Idx → EReal) (Wo : Wm.Idx → EReal) (bo : B1.Idx → EReal) : T3.Idx → EReal :=
  projG (merge (refattG (heads (projG x Wq bq)) (heads (projG x Wk bk)) (heads (projG x Wv bv)))) Wo bo

/-- The kernel program's head split of a projection held as 4096 rows. -/
def kheads (Y : T2.Idx → EReal) : H3.Idx → EReal :=
  shapeCast H3 (transpose H4 [0, 2, 1, 3] (shapeCast P4 Y hT2P4) hP4H4) hH4H3

/-- The kernel program's merge of the attention output back into 4096 rows. -/
def kmerge (O : H3.Idx → EReal) : T2.Idx → EReal :=
  shapeCast T2 (shapeCast T3 (transpose P4 [0, 2, 1, 3] (shapeCast H4 O hH3H4) hH4P4) hP4T3) hT3T2

/-- The whole layer, as the kernel program arranges it. -/
def kform (x : T3.Idx → EReal) (Wq : Wm.Idx → EReal) (bq : B1.Idx → EReal) (Wk : Wm.Idx → EReal) (bk : B1.Idx → EReal)
    (Wv : Wm.Idx → EReal) (bv : B1.Idx → EReal) (Wo : Wm.Idx → EReal) (bo : B1.Idx → EReal) : T3.Idx → EReal :=
  shapeCast T3
    (linG (kmerge (attG (kheads (linG (shapeCast T2 x hT3T2) Wq (shapeCast B2 bq hB1B2)))
                        (kheads (linG (shapeCast T2 x hT3T2) Wk (shapeCast B2 bk hB1B2)))
                        (kheads (linG (shapeCast T2 x hT3T2) Wv (shapeCast B2 bv hB1B2)))))
      Wo (shapeCast B2 bo hB1B2)) hT2T3

end Cert.Spec

end
-- ==== Proof.Bridge.lean ====
/-
  The kernel program's arrangement of the layer equals the reference's.

  Both compute the same numbers; they differ in how the arrays are laid out.  The kernel holds the tokens as 4096 rows
  and the heads as 32 batch·head slices, where the reference keeps the batch axis.  A row-major reshape only renames
  the indices, so every projection and the attention commute with it: a projection of the reshaped tokens is the
  reshaped projection (`lin_cast`), the attention of the flattened heads is the flattened attention (`att_cast`), and
  reshapes compose (`cast_cast`).  The one scalar fact is `y · 3.75 = 30 · (y / 8)` on the extended reals.
-/
import proofs.«110700_j28905129902577_1_alg».proof.Proof.Spec
import Idealize.ShloMosaic.Lib.Pipeline.Value
import Idealize.ShloMosaic.Lib.ValueLayout

noncomputable section

namespace Cert.Spec

open Idealize.ShloMosaic Idealize.ShloMosaic.ValueIdx

/-! ## Reshapes compose -/

/-- A row-major reshape through a third shape is the direct reshape. -/
theorem cast_cast {s t u : Shape} {α : Type} (v : s.Idx → α) (h : s.ShapeCasts t) (h' : t.ShapeCasts u)
    (h'' : s.ShapeCasts u) : shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-! ## The reshapes read at an index -/

/-- Tokens as rows, read at row `r`: batch `r / 2048`, token `r % 2048`. -/
theorem cast_T3T2_apply {α : Type} (X : T3.Idx → α) (h : T3.ShapeCasts T2) (r : Fin 4096) (d : Fin 1024) :
    shapeCast T2 X h (ix2 r d)
      = X (ix3 (⟨r.val / 2048, by omega⟩ : Fin 2) (⟨r.val % 2048, by omega⟩ : Fin 2048) d) := by
  refine shapeCast_apply X h _ _ ?_
  rw [Shape.rowMajor_val_three, Shape.rowMajor_val_two]
  show (r.val / 2048 * 2048 + r.val % 2048) * 1024 + d.val = r.val * 1024 + d.val
  omega

/-- A bias as one row, read at feature `e`. -/
theorem cast_B1B2_apply {α : Type} (b : B1.Idx → α) (h : B1.ShapeCasts B2) (z : Fin 1) (e : Fin 1024) :
    shapeCast B2 b h (ix2 z e) = b (ix1 e) := by
  refine shapeCast_apply b h _ _ ?_
  rw [Shape.rowMajor_val_one, Shape.rowMajor_val_two]
  show e.val = z.val * 1024 + e.val
  omega

/-- Heads flattened, read at slice `g`: batch `g / 16`, head `g % 16`. -/
theorem cast_H4H3_apply {α : Type} (A : H4.Idx → α) (h : H4.ShapeCasts H3) (g : Fin 32) (q : Fin 2048) (j : Fin 64) :
    shapeCast H3 A h (ix3 g q j)
      = A (ix4 (⟨g.val / 16, by omega⟩ : Fin 2) (⟨g.val % 16, by omega⟩ : Fin 16) q j) := by
  refine shapeCast_apply A h _ _ ?_
  rw [Shape.rowMajor_val_four, Shape.rowMajor_val_three]
  show ((g.val / 16 * 16 + g.val % 16) * 2048 + q.val) * 64 + j.val = (g.val * 2048 + q.val) * 64 + j.val
  omega

/-! ## A projection commutes with the reshape of the tokens -/

theorem lin_cast (X : T3.Idx → EReal) (W : Wm.Idx → EReal) (b : B1.Idx → EReal) (h : T3.ShapeCasts T2)
    (hb : B1.ShapeCasts B2) : linG (shapeCast T2 X h) W (shapeCast B2 b hb) = shapeCast T2 (projG X W b) h := by
  funext i
  obtain ⟨r, e, rfl⟩ : ∃ r e, i = ix2 r e := ⟨i 0, i 1, eq_ix2 i⟩
  rw [cast_T3T2_apply]
  show linAt (shapeCast T2 X h) W (shapeCast B2 b hb) r e
      = projAt X W b (⟨r.val / 2048, by omega⟩ : Fin 2) (⟨r.val % 2048, by omega⟩ : Fin 2048) e
  unfold linAt projAt
  rw [cast_B1B2_apply]
  congr 1
  exact Finset.sum_congr rfl fun d _ => by rw [cast_T3T2_apply]

/-! ## The scale: `y · 3.75 = 30 · (y / 8)` -/

theorem c375_eq : c375 = ((3.75 : ℝ) : EReal) := by
  unfold c375; simp [Ideal.ofBits, Ideal.ieee, -EReal.coe_mul]; norm_num

theorem c8_eq : c8 = ((8 : ℝ) : EReal) := by
  unfold c8; simp [Ideal.ofBits, Ideal.ieee, -EReal.coe_mul]; norm_num

theorem c30_eq : c30 = ((30 : ℝ) : EReal) := by
  unfold c30; simp [Ideal.ofBits, Ideal.ieee, -EReal.coe_mul]; norm_num

/-- Dividing by 8 and then multiplying by 30 is multiplying by 3.75, at the infinities too. -/
theorem scale_eq (y : EReal) : y * c375 = c30 * Ideal.div y c8 := by
  rw [c375_eq, c30_eq, c8_eq, Ideal.div_coe (by norm_num : (8 : ℝ) ≠ 0), mul_comm ((30 : ℝ) : EReal), mul_assoc,
    ← EReal.coe_mul]
  norm_num

/-! ## The attention commutes with the flattening of the heads -/

theorem att_cast (Q K V : H4.Idx → EReal) (h : H4.ShapeCasts H3) :
    attG (shapeCast H3 Q h) (shapeCast H3 K h) (shapeCast H3 V h) = shapeCast H3 (refattG Q K V) h := by
  funext i
  obtain ⟨g, q, d, rfl⟩ : ∃ g q d, i = ix3 g q d := ⟨i 0, i 1, i 2, eq_ix3 i⟩
  rw [cast_H4H3_apply]
  show attAt (shapeCast H3 Q h) (shapeCast H3 K h) (shapeCast H3 V h) g q d
      = refattAt Q K V (⟨g.val / 16, by omega⟩ : Fin 2) (⟨g.val % 16, by omega⟩ : Fin 16) q d
  unfold attAt refattAt
  refine Finset.sum_congr rfl fun k _ => ?_
  have hs : (∑ j : Fin 64, shapeCast H3 Q h (ix3 g q j) * shapeCast H3 K h (ix3 g k j))
      = ∑ j : Fin 64, Q (ix4 (⟨g.val / 16, by omega⟩ : Fin 2) (⟨g.val % 16, by omega⟩ : Fin 16) q j)
          * K (ix4 (⟨g.val / 16, by omega⟩ : Fin 2) (⟨g.val % 16, by omega⟩ : Fin 16) k j) :=
    Finset.sum_congr rfl fun j _ => by rw [cast_H4H3_apply, cast_H4H3_apply]
  rw [hs, cast_H4H3_apply, scale_eq]

/-! ## The two head splits and the two merges -/

/-- The kernel's head split of a projection held as rows is the flattened head split. -/
theorem kheads_cast (Y : T3.Idx → EReal) (h : T3.ShapeCasts T2) :
    kheads (shapeCast T2 Y h) = shapeCast H3 (heads Y) hH4H3 := by
  unfold kheads heads
  rw [cast_cast Y h hT2P4 hT3P4]

/-- The kernel's merge of flattened heads is the merge, held as rows. -/
theorem kmerge_cast (A : H4.Idx → EReal) (h : H4.ShapeCasts H3) :
    kmerge (shapeCast H3 A h) = shapeCast T2 (merge A) hT3T2 := by
  unfold kmerge merge
  rw [shapeCast_shapeCast]

/-! ## The layer -/

theorem kform_eq_model (x : T3.Idx → EReal) (Wq : Wm.Idx → EReal) (bq : B1.Idx → EReal) (Wk : Wm.Idx → EReal) (bk : B1.Idx → EReal)
    (Wv : Wm.Idx → EReal) (bv : B1.Idx → EReal) (Wo : Wm.Idx → EReal) (bo : B1.Idx → EReal) :
    kform x Wq bq Wk bk Wv bv Wo bo = model x Wq bq Wk bk Wv bv Wo bo := by
  unfold kform model
  rw [lin_cast, lin_cast, lin_cast, kheads_cast, kheads_cast, kheads_cast, att_cast, kmerge_cast, lin_cast,
    shapeCast_shapeCast]

end Cert.Spec

end
-- ==== Proof.LibTransposedMatmul.lean ====
/-
  A matrix product with the right operand contracted on its LAST axis, read at an entry.  For the dimension
  numbers of an `M × K` by `N × K` product (`DotDims.transposedRhs`: both operands contracted on their columns, no
  batch axis), a `tpu.matmul` into the zero splat is, at the extended reals and at row `r`, column `c`, the sum over
  `k : Fin K` of the left operand at `(r, k)` times the right at `(c, k)`.  Nothing here names a program.
-/
import Idealize.ShloMosaic.PureOps.Ideal.Laws
import Idealize.ShloMosaic.Lib.ValueIdx

namespace Cert.TransposedMatmul

open Idealize.ShloMosaic Idealize.ShloMosaic.ValueIdx

/-- The left operand's index at output `(r, c)` and contraction coordinate `k` is `(r, k)`. -/
theorem lhsIdx_transposedRhs {M K N : ℕ} (r : Fin M) (c : Fin N) (k : Fin K) :
    (DotDims.transposedRhs M K N).lhsIdx (ix2 r c) ((contrEquiv1 (DotDims.transposedRhs M K N) K rfl rfl).symm k) = ix2 r k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 r c) _).trans hk

/-- The right operand's index there is `(c, k)`. -/
theorem rhsIdx_transposedRhs {M K N : ℕ} (r : Fin M) (c : Fin N) (k : Fin K) :
    (DotDims.transposedRhs M K N).rhsIdx (ix2 r c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 r c) _).trans hk

/-- Such a `tpu.matmul` into zeros, at entry `(r, c)`, is `∑ k, a (r, k) * b (c, k)` on the extended reals. -/
theorem matmul_transposedRhs_zero_apply {M K N : ℕ} {φ₁ φ₂ : FTy}
    (a : FVec Ideal ⟨2, ![M, K]⟩ φ₁) (b : FVec Ideal ⟨2, ![N, K]⟩ φ₂) (prec : Option ContractPrecision) (r : Fin M) (c : Fin N) :
    matmul (DotDims.transposedRhs M K N) prec a b (constant ⟨2, ![M, N]⟩ .f32 0x00000000#32) (ix2 r c)
      = ∑ k : Fin K, a (ix2 r k) * b (ix2 c k) := by
  show FloatOps.matmul (DotDims.transposedRhs M K N) prec a b (constant ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

end Cert.TransposedMatmul
-- ==== Proof.LinValue0.lean ====
/-
  Region 0 of the kernel program, read as a value: the first of the three input projections.

  The region is one launch over a grid of 8 points.  Point `t` holds rows `512 t … 512 t + 511` of the 4096 × 1024
  token array, the whole 1024 × 1024 weight matrix (stored (out, in)) and the 1 × 1024 bias row; it stores, as block
  `t` of the output, the product of the token rows with the weight matrix contracted on both operands' columns,
  accumulated from zero, plus the bias row broadcast over the rows.  On the extended reals the narrowings of the two
  operands and of the result are the identity, so the stored entry at row `r`, feature `e` is
  `∑ d, x (512 t + r, d) · W (e, d) + b (0, e)`.  The 8 blocks tile the 4096 rows and every point writes its block
  back, so the output array after the region is `Spec.linG` of the three input arrays as the region finds them.
-/
import proofs.«110700_j28905129902577_1_alg».proof.Proof.Gen.KernelIdeal.Frame
import proofs.«110700_j28905129902577_1_alg».proof.Proof.Spec
import proofs.«110700_j28905129902577_1_alg».proof.Proof.LibTransposedMatmul
import Idealize.ShloMosaic.Lib.Pipeline.Value
import Idealize.ShloMosaic.Lib.ValueLayout

noncomputable section

namespace Cert.KernelIdeal.LinValue

open Idealize.ShloMosaic Idealize.ShloMosaic.TcCoe Idealize.ShloMosaic.ValueIdx Idealize.SL.Sem
open Cert.KernelIdeal Cert.KernelIdeal.Gen

/-- The body's loads and its one store go through the whole-block rectangle at offsets zero. -/
theorem offsets_zero0 : (![0, 0] : Fin 2 → Nat) = fun _ => 0 := funext fun a => by fin_cases a <;> rfl

/-- The value the body stores, at row `r` and output feature `e` of its block: the row of the token block against
    row `e` of the weight block (both contracted on their columns, accumulated from zero), plus the bias row at `e`.
    The two narrowings of the operands and the one of the result are the identity on the extended reals. -/
theorem stored_apply0 (x0 : Vec Ideal S512x1024 .f32) (x1 : Vec Ideal S1024x1024 .f32) (x2 : Vec Ideal S1x1024 .f32)
    (r : Fin 512) (e : Fin 1024) :
    k0_pay1 x0 x1 x2 (ix2 r e) = (∑ d : Fin 1024, x0 (ix2 r d) * x1 (ix2 e d)) + x2 (ix2 (0 : Fin 1) e) := by
  unfold k0_pay1
  simp only [truncf_apply, addf_apply, shapeCast_self]
  rw [broadcastTo_1b_ab_apply]
  congr 1
  refine (Cert.TransposedMatmul.matmul_transposedRhs_zero_apply (M := 512) (K := 1024) (N := 1024)
    (truncf .bf16 x0 bitsLt_bf16_f32) (truncf .bf16 x1 bitsLt_bf16_f32) none r e).trans ?_
  rfl

variable (V : (c : Dev nD) → (b : Ref sig .tc) → Buf (Elt Ideal) ((c : Thread nD τ).loc b))

/-- The printed index maps, decided over the grid: the token window and the output window sit at row block `t`,
    column block 0; the weight window and the bias window at block (0, 0) at every point. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The token block at point `t` is rows `512 t … 512 t + 511` of the token array. -/
theorem tokens_block_apply0 (c : Dev nD) (t : Fin cfg0.N) (r : Fin 512) (d : Fin 1024) (R : Fin 4096)
    (hR : R.val = t.val * 512 + r.val) :
    (iblk0 V c 0 t : Vec Ideal S512x1024 .f32) (ix2 r d) = (V c main_v0 : S4096x1024.Idx → EReal) (ix2 R d) := by
  obtain ⟨e0, e1, -⟩ := index_facts0 t
  unfold iblk0
  rw [View.read_apply]
  show V c main_v0 _ = V c main_v0 _
  congr 1
  funext a
  apply Fin.ext
  match a with
  | ⟨0, _⟩ => show win0_0.index t (0 : Fin 2) * 512 + 1 * r.val = R.val; omega
  | ⟨1, _⟩ => show win0_0.index t (1 : Fin 2) * 1024 + 1 * d.val = d.val; omega

/-- The weight block at every point is the whole weight matrix. -/
theorem weights_block_apply0 (c : Dev nD) (t : Fin cfg0.N) (e d : Fin 1024) :
    (iblk0 V c 1 t : Vec Ideal S1024x1024 .f32) (ix2 e d) = (V c main_arg1 : S1024x1024.Idx → EReal) (ix2 e d) := by
  obtain ⟨-, -, e0, e1, -⟩ := index_facts0 t
  unfold iblk0
  rw [View.read_apply]
  show V c main_arg1 _ = V c main_arg1 _
  congr 1
  funext a
  apply Fin.ext
  match a with
  | ⟨0, _⟩ => show win0_1.index t (0 : Fin 2) * 1024 + 1 * e.val = e.val; omega
  | ⟨1, _⟩ => show win0_1.index t (1 : Fin 2) * 1024 + 1 * d.val = d.val; omega

/-- The bias block at every point is the whole bias row. -/
theorem bias_block_apply0 (c : Dev nD) (t : Fin cfg0.N) (e : Fin 1024) :
    (iblk0 V c 2 t : Vec Ideal S1x1024 .f32) (ix2 (0 : Fin 1) e) = (V c main_v1 : S1x1024.Idx → EReal) (ix2 (0 : Fin 1) e) := by
  obtain ⟨-, -, -, -, e0, e1, -⟩ := index_facts0 t
  unfold iblk0
  rw [View.read_apply]
  show V c main_v1 _ = V c main_v1 _
  congr 1
  funext a
  apply Fin.ext
  match a with
  | ⟨0, _⟩ => show win0_2.index t (0 : Fin 2) * 1 + 1 * (0 : Fin 1).val = (0 : Fin 1).val; omega
  | ⟨1, _⟩ => show win0_2.index t (1 : Fin 2) * 1024 + 1 * e.val = e.val; omega

/-- One block against the specification, over the literal types: if `x0` is rows `512 T …` of `X`, `x1` is `W` and
    `x2` is `b`, the stored value at `j` is `X · Wᵀ + b` at the array index `i` that `j` names (row `512 T + j 0`, column `j 1`). -/
theorem stored_eq_linG0 (X : S4096x1024.Idx → EReal) (W : S1024x1024.Idx → EReal) (b : S1x1024.Idx → EReal)
    (x0 : Vec Ideal S512x1024 .f32) (x1 : Vec Ideal S1024x1024 .f32) (x2 : Vec Ideal S1x1024 .f32) (T : ℕ)
    (h0 : ∀ (r : Fin 512) (d : Fin 1024) (R : Fin 4096), R.val = T * 512 + r.val → x0 (ix2 r d) = X (ix2 R d))
    (h1 : ∀ e d : Fin 1024, x1 (ix2 e d) = W (ix2 e d))
    (h2 : ∀ e : Fin 1024, x2 (ix2 (0 : Fin 1) e) = b (ix2 (0 : Fin 1) e))
    (j : S512x1024.Idx) (i : S4096x1024.Idx) (hi0 : (i 0).val = T * 512 + (j 0).val) (hi1 : (i 1).val = (j 1).val) :
    k0_pay1 x0 x1 x2 j = Cert.Spec.linG X W b i := by
  obtain ⟨r, e, rfl⟩ : ∃ (r : Fin 512) (e : Fin 1024), j = ix2 r e := ⟨j 0, j 1, eq_ix2 j⟩
  rw [stored_apply0]
  unfold Cert.Spec.linG Cert.Spec.linAt
  have hR : (⟨(i 0).val, (i 0).isLt⟩ : Fin 4096).val = T * 512 + r.val := hi0
  have hE : (⟨(i 1).val, (i 1).isLt⟩ : Fin 1024) = e := Fin.ext hi1
  rw [hE, h2 e]
  congr 1
  refine Finset.sum_congr rfl fun d _ => ?_
  rw [h0 r d _ hR, h1 e d]

/-- WHAT POINT `t` WRITES BACK is block `t` of `x · Wᵀ + b` of the three input arrays as the region finds them. -/
theorem flushed_eq0 (c : Dev nD) (t : Fin cfg0.N) :
    (dat0 (F := Ideal) V c).flushed 3 t
      = ((cfg0.win 3).blk t).view.read (Elt Ideal) (Cert.Spec.linG (V c main_v0) (V c main_arg1) (V c main_v1)) := by
  show (cfg0.win 3).cut (grid0.coords t) ((dat0 V c).after 3 t) = _
  rw [after0_3]
  unfold out0_3
  rw [View.canon_unit_zero offsets_zero0]
  simp only [View.ld_unit_zero (S := S512x1024) offsets_zero0, View.ld_unit_zero (S := S1024x1024) offsets_zero0,
    View.ld_unit_zero (S := S1x1024) offsets_zero0]
  obtain ⟨-, -, -, -, -, -, e0, e1⟩ := index_facts0 t
  funext j
  show k0_pay1 (iblk0 V c 0 t) (iblk0 V c 1 t) (iblk0 V c 2 t) j
    = Cert.Spec.linG (V c main_v0) (V c main_arg1) (V c main_v1) (((cfg0.win 3).blk t).view.emb j)
  refine stored_eq_linG0 (V c main_v0) (V c main_arg1) (V c main_v1) (iblk0 V c 0 t) (iblk0 V c 1 t) (iblk0 V c 2 t) t.val
    (fun r d R hR => tokens_block_apply0 V c t r d R hR) (weights_block_apply0 V c t) (bias_block_apply0 V c t)
    j (((cfg0.win 3).blk t).view.emb j) ?_ ?_
  · show win0_3.index t (0 : Fin 2) * 512 + 1 * (j 0).val = t.val * 512 + (j 0).val; omega
  · show win0_3.index t (1 : Fin 2) * 1024 + 1 * (j 1).val = (j 1).val; omega

/-- An index of the output array is in point `t`'s block iff each coordinate is in the block's range on its axis. -/
theorem mem_block0 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2).slice (win0_3.rect t)).set ↔ _
  rw [View.set_slice_whole, Rect.mem_set_unit]
  exact Iff.rfl

/-- THE COVER: row `R` of the output lies in the block of the point `R / 512`, and every point writes its block back. -/
theorem covered0 (i : S4096x1024.Idx) :
    ∃ t : Fin cfg0.N, (cfg0.win 3).flush t = true ∧ i ∈ ((cfg0.win 3).blk t).view.set := by
  have hN : cfg0.N = 8 := N_0
  have hi0 : (i 0).val < 4096 := (i 0).isLt
  have hi1 : (i 1).val < 1024 := (i 1).isLt
  obtain ⟨t, ht⟩ : ∃ t : Fin cfg0.N, t.val = (i 0).val / 512 := ⟨⟨(i 0).val / 512, by rw [hN]; omega⟩, rfl⟩
  obtain ⟨-, -, -, -, -, -, e0, e1⟩ := index_facts0 t
  refine ⟨t, flush0_3 t, ?_⟩
  rw [mem_block0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE OUTPUT ARRAY after the region: `x · Wᵀ + b` on 4096 rows, of the token array, the weight matrix and the bias row
    as the region finds them. -/
theorem final0 (c : Dev nD) :
    (dat0 (F := Ideal) V c).arrAt 3 cfg0.N = Cert.Spec.linG (V c main_v0) (V c main_arg1) (V c main_v1) :=
  (dat0 (F := Ideal) V c).arrAt_eq_of_cover 3 (Cert.Spec.linG (V c main_v0) (V c main_arg1) (V c main_v1))
    (fun t _ => flushed_eq0 V c t) covered0

end Cert.KernelIdeal.LinValue

end
-- ==== Proof.LinValue1.lean ====
/-
  Region 1 of the kernel program, read as a value: the second of the three input projections.

  The region is one launch over a grid of 8 points.  Point `t` holds rows `512 t … 512 t + 511` of the 4096 × 1024
  token array, the whole 1024 × 1024 weight matrix (stored (out, in)) and the 1 × 1024 bias row; it stores, as block
  `t` of the output, the product of the token rows with the weight matrix contracted on both operands' columns,
  accumulated from zero, plus the bias row broadcast over the rows.  On the extended reals the narrowings of the two
  operands and of the result are the identity, so the stored entry at row `r`, feature `e` is
  `∑ d, x (512 t + r, d) · W (e, d) + b (0, e)`.  The 8 blocks tile the 4096 rows and every point writes its block
  back, so the output array after the region is `Spec.linG` of the three input arrays as the region finds them.
-/
import proofs.«110700_j28905129902577_1_alg».proof.Proof.Gen.KernelIdeal.Frame
import proofs.«110700_j28905129902577_1_alg».proof.Proof.Spec
import proofs.«110700_j28905129902577_1_alg».proof.Proof.LibTransposedMatmul
import Idealize.ShloMosaic.Lib.Pipeline.Value
import Idealize.ShloMosaic.Lib.ValueLayout

noncomputable section

namespace Cert.KernelIdeal.LinValue

open Idealize.ShloMosaic Idealize.ShloMosaic.TcCoe Idealize.ShloMosaic.ValueIdx Idealize.SL.Sem
open Cert.KernelIdeal Cert.KernelIdeal.Gen

/-- The body's loads and its one store go through the whole-block rectangle at offsets zero. -/
theorem offsets_zero1 : (![0, 0] : Fin 2 → Nat) = fun _ => 0 := funext fun a => by fin_cases a <;> rfl

/-- The value the body stores, at row `r` and output feature `e` of its block: the row of the token block against
    row `e` of the weight block (both contracted on their columns, accumulated from zero), plus the bias row at `e`.
    The two narrowings of the operands and the one of the result are the identity on the extended reals. -/
theorem stored_apply1 (x0 : Vec Ideal S512x1024 .f32) (x1 : Vec Ideal S1024x1024 .f32) (x2 : Vec Ideal S1x1024 .f32)
    (r : Fin 512) (e : Fin 1024) :
    k1_pay1 x0 x1 x2 (ix2 r e) = (∑ d : Fin 1024, x0 (ix2 r d) * x1 (ix2 e d)) + x2 (ix2 (0 : Fin 1) e) := by
  unfold k1_pay1
  simp only [truncf_apply, addf_apply, shapeCast_self]
  rw [broadcastTo_1b_ab_apply]
  congr 1
  refine (Cert.TransposedMatmul.matmul_transposedRhs_zero_apply (M := 512) (K := 1024) (N := 1024)
    (truncf .bf16 x0 bitsLt_bf16_f32) (truncf .bf16 x1 bitsLt_bf16_f32) none r e).trans ?_
  rfl

variable (V : (c : Dev nD) → (b : Ref sig .tc) → Buf (Elt Ideal) ((c : Thread nD τ).loc b))

/-- The printed index maps, decided over the grid: the token window and the output window sit at row block `t`,
    column block 0; the weight window and the bias window at block (0, 0) at every point. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The token block at point `t` is rows `512 t … 512 t + 511` of the token array. -/
theorem tokens_block_apply1 (c : Dev nD) (t : Fin cfg1.N) (r : Fin 512) (d : Fin 1024) (R : Fin 4096)
    (hR : R.val = t.val * 512 + r.val) :
    (iblk1 V c 0 t : Vec Ideal S512x1024 .f32) (ix2 r d) = (V c main_v0 : S4096x1024.Idx → EReal) (ix2 R d) := by
  obtain ⟨e0, e1, -⟩ := index_facts1 t
  unfold iblk1
  rw [View.read_apply]
  show V c main_v0 _ = V c main_v0 _
  congr 1
  funext a
  apply Fin.ext
  match a with
  | ⟨0, _⟩ => show win1_0.index t (0 : Fin 2) * 512 + 1 * r.val = R.val; omega
  | ⟨1, _⟩ => show win1_0.index t (1 : Fin 2) * 1024 + 1 * d.val = d.val; omega

/-- The weight block at every point is the whole weight matrix. -/
theorem weights_block_apply1 (c : Dev nD) (t : Fin cfg1.N) (e d : Fin 1024) :
    (iblk1 V c 1 t : Vec Ideal S1024x1024 .f32) (ix2 e d) = (V c main_arg3 : S1024x1024.Idx → EReal) (ix2 e d) := by
  obtain ⟨-, -, e0, e1, -⟩ := index_facts1 t
  unfold iblk1
  rw [View.read_apply]
  show V c main_arg3 _ = V c main_arg3 _
  congr 1
  funext a
  apply Fin.ext
  match a with
  | ⟨0, _⟩ => show win1_1.index t (0 : Fin 2) * 1024 + 1 * e.val = e.val; omega
  | ⟨1, _⟩ => show win1_1.index t (1 : Fin 2) * 1024 + 1 * d.val = d.val; omega

/-- The bias block at every point is the whole bias row. -/
theorem bias_block_apply1 (c : Dev nD) (t : Fin cfg1.N) (e : Fin 1024) :
    (iblk1 V c 2 t : Vec Ideal S1x1024 .f32) (ix2 (0 : Fin 1) e) = (V c main_v3 : S1x1024.Idx → EReal) (ix2 (0 : Fin 1) e) := by
  obtain ⟨-, -, -, -, e0, e1, -⟩ := index_facts1 t
  unfold iblk1
  rw [View.read_apply]
  show V c main_v3 _ = V c main_v3 _
  congr 1
  funext a
  apply Fin.ext
  match a with
  | ⟨0, _⟩ => show win1_2.index t (0 : Fin 2) * 1 + 1 * (0 : Fin 1).val = (0 : Fin 1).val; omega
  | ⟨1, _⟩ => show win1_2.index t (1 : Fin 2) * 1024 + 1 * e.val = e.val; omega

/-- One block against the specification, over the literal types: if `x0` is rows `512 T …` of `X`, `x1` is `W` and
    `x2` is `b`, the stored value at `j` is `X · Wᵀ + b` at the array index `i` that `j` names (row `512 T + j 0`, column `j 1`). -/
theorem stored_eq_linG1 (X : S4096x1024.Idx → EReal) (W : S1024x1024.Idx → EReal) (b : S1x1024.Idx → EReal)
    (x0 : Vec Ideal S512x1024 .f32) (x1 : Vec Ideal S1024x1024 .f32) (x2 : Vec Ideal S1x1024 .f32) (T : ℕ)
    (h0 : ∀ (r : Fin 512) (d : Fin 1024) (R : Fin 4096), R.val = T * 512 + r.val → x0 (ix2 r d) = X (ix2 R d))
    (h1 : ∀ e d : Fin 1024, x1 (ix2 e d) = W (ix2 e d))
    (h2 : ∀ e : Fin 1024, x2 (ix2 (0 : Fin 1) e) = b (ix2 (0 : Fin 1) e))
    (j : S512x1024.Idx) (i : S4096x1024.Idx) (hi0 : (i 0).val = T * 512 + (j 0).val) (hi1 : (i 1).val = (j 1).val) :
    k1_pay1 x0 x1 x2 j = Cert.Spec.linG X W b i := by
  obtain ⟨r, e, rfl⟩ : ∃ (r : Fin 512) (e : Fin 1024), j = ix2 r e := ⟨j 0, j 1, eq_ix2 j⟩
  rw [stored_apply1]
  unfold Cert.Spec.linG Cert.Spec.linAt
  have hR : (⟨(i 0).val, (i 0).isLt⟩ : Fin 4096).val = T * 512 + r.val := hi0
  have hE : (⟨(i 1).val, (i 1).isLt⟩ : Fin 1024) = e := Fin.ext hi1
  rw [hE, h2 e]
  congr 1
  refine Finset.sum_congr rfl fun d _ => ?_
  rw [h0 r d _ hR, h1 e d]

/-- WHAT POINT `t` WRITES BACK is block `t` of `x · Wᵀ + b` of the three input arrays as the region finds them. -/
theorem flushed_eq1 (c : Dev nD) (t : Fin cfg1.N) :
    (dat1 (F := Ideal) V c).flushed 3 t
      = ((cfg1.win 3).blk t).view.read (Elt Ideal) (Cert.Spec.linG (V c main_v0) (V c main_arg3) (V c main_v3)) := by
  show (cfg1.win 3).cut (grid1.coords t) ((dat1 V c).after 3 t) = _
  rw [after1_3]
  unfold out1_3
  rw [View.canon_unit_zero offsets_zero1]
  simp only [View.ld_unit_zero (S := S512x1024) offsets_zero1, View.ld_unit_zero (S := S1024x1024) offsets_zero1,
    View.ld_unit_zero (S := S1x1024) offsets_zero1]
  obtain ⟨-, -, -, -, -, -, e0, e1⟩ := index_facts1 t
  funext j
  show k1_pay1 (iblk1 V c 0 t) (iblk1 V c 1 t) (iblk1 V c 2 t) j
    = Cert.Spec.linG (V c main_v0) (V c main_arg3) (V c main_v3) (((cfg1.win 3).blk t).view.emb j)
  refine stored_eq_linG1 (V c main_v0) (V c main_arg3) (V c main_v3) (iblk1 V c 0 t) (iblk1 V c 1 t) (iblk1 V c 2 t) t.val
    (fun r d R hR => tokens_block_apply1 V c t r d R hR) (weights_block_apply1 V c t) (bias_block_apply1 V c t)
    j (((cfg1.win 3).blk t).view.emb j) ?_ ?_
  · show win1_3.index t (0 : Fin 2) * 512 + 1 * (j 0).val = t.val * 512 + (j 0).val; omega
  · show win1_3.index t (1 : Fin 2) * 1024 + 1 * (j 1).val = (j 1).val; omega

/-- An index of the output array is in point `t`'s block iff each coordinate is in the block's range on its axis. -/
theorem mem_block1 (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v4).slice (win1_3.rect t)).set ↔ _
  rw [View.set_slice_whole, Rect.mem_set_unit]
  exact Iff.rfl

/-- THE COVER: row `R` of the output lies in the block of the point `R / 512`, and every point writes its block back. -/
theorem covered1 (i : S4096x1024.Idx) :
    ∃ t : Fin cfg1.N, (cfg1.win 3).flush t = true ∧ i ∈ ((cfg1.win 3).blk t).view.set := by
  have hN : cfg1.N = 8 := N_1
  have hi0 : (i 0).val < 4096 := (i 0).isLt
  have hi1 : (i 1).val < 1024 := (i 1).isLt
  obtain ⟨t, ht⟩ : ∃ t : Fin cfg1.N, t.val = (i 0).val / 512 := ⟨⟨(i 0).val / 512, by rw [hN]; omega⟩, rfl⟩
  obtain ⟨-, -, -, -, -, -, e0, e1⟩ := index_facts1 t
  refine ⟨t, flush1_3 t, ?_⟩
  rw [mem_block1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE OUTPUT ARRAY after the region: `x · Wᵀ + b` on 4096 rows, of the token array, the weight matrix and the bias row
    as the region finds them. -/
theorem final1 (c : Dev nD) :
    (dat1 (F := Ideal) V c).arrAt 3 cfg1.N = Cert.Spec.linG (V c main_v0) (V c main_arg3) (V c main_v3) :=
  (dat1 (F := Ideal) V c).arrAt_eq_of_cover 3 (Cert.Spec.linG (V c main_v0) (V c main_arg3) (V c main_v3))
    (fun t _ => flushed_eq1 V c t) covered1

end Cert.KernelIdeal.LinValue

end
-- ==== Proof.LinValue2.lean ====
/-
  Region 2 of the kernel program, read as a value: the third of the three input projections.

  The region is one launch over a grid of 8 points.  Point `t` holds rows `512 t … 512 t + 511` of the 4096 × 1024
  token array, the whole 1024 × 1024 weight matrix (stored (out, in)) and the 1 × 1024 bias row; it stores, as block
  `t` of the output, the product of the token rows with the weight matrix contracted on both operands' columns,
  accumulated from zero, plus the bias row broadcast over the rows.  On the extended reals the narrowings of the two
  operands and of the result are the identity, so the stored entry at row `r`, feature `e` is
  `∑ d, x (512 t + r, d) · W (e, d) + b (0, e)`.  The 8 blocks tile the 4096 rows and every point writes its block
  back, so the output array after the region is `Spec.linG` of the three input arrays as the region finds them.
-/
import proofs.«110700_j28905129902577_1_alg».proof.Proof.Gen.KernelIdeal.Frame
import proofs.«110700_j28905129902577_1_alg».proof.Proof.Spec
import proofs.«110700_j28905129902577_1_alg».proof.Proof.LibTransposedMatmul
import Idealize.ShloMosaic.Lib.Pipeline.Value
import Idealize.ShloMosaic.Lib.ValueLayout

noncomputable section

namespace Cert.KernelIdeal.LinValue

open Idealize.ShloMosaic Idealize.ShloMosaic.TcCoe Idealize.ShloMosaic.ValueIdx Idealize.SL.Sem
open Cert.KernelIdeal Cert.KernelIdeal.Gen

/-- The body's loads and its one store go through the whole-block rectangle at offsets zero. -/
theorem offsets_zero2 : (![0, 0] : Fin 2 → Nat) = fun _ => 0 := funext fun a => by fin_cases a <;> rfl

/-- The value the body stores, at row `r` and output feature `e` of its block: the row of the token block against
    row `e` of the weight block (both contracted on their columns, accumulated from zero), plus the bias row at `e`.
    The two narrowings of the operands and the one of the result are the identity on the extended reals. -/
theorem stored_apply2 (x0 : Vec Ideal S512x1024 .f32) (x1 : Vec Ideal S1024x1024 .f32) (x2 : Vec Ideal S1x1024 .f32)
    (r : Fin 512) (e : Fin 1024) :
    k2_pay1 x0 x1 x2 (ix2 r e) = (∑ d : Fin 1024, x0 (ix2 r d) * x1 (ix2 e d)) + x2 (ix2 (0 : Fin 1) e) := by
  unfold k2_pay1
  simp only [truncf_apply, addf_apply, shapeCast_self]
  rw [broadcastTo_1b_ab_apply]
  congr 1
  refine (Cert.TransposedMatmul.matmul_transposedRhs_zero_apply (M := 512) (K := 1024) (N := 1024)
    (truncf .bf16 x0 bitsLt_bf16_f32) (truncf .bf16 x1 bitsLt_bf16_f32) none r e).trans ?_
  rfl

variable (V : (c : Dev nD) → (b : Ref sig .tc) → Buf (Elt Ideal) ((c : Thread nD τ).loc b))

/-- The printed index maps, decided over the grid: the token window and the output window sit at row block `t`,
    column block 0; the weight window and the bias window at block (0, 0) at every point. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The token block at point `t` is rows `512 t … 512 t + 511` of the token array. -/
theorem tokens_block_apply2 (c : Dev nD) (t : Fin cfg2.N) (r : Fin 512) (d : Fin 1024) (R : Fin 4096)
    (hR : R.val = t.val * 512 + r.val) :
    (iblk2 V c 0 t : Vec Ideal S512x1024 .f32) (ix2 r d) = (V c main_v0 : S4096x1024.Idx → EReal) (ix2 R d) := by
  obtain ⟨e0, e1, -⟩ := index_facts2 t
  unfold iblk2
  rw [View.read_apply]
  show V c main_v0 _ = V c main_v0 _
  congr 1
  funext a
  apply Fin.ext
  match a with
  | ⟨0, _⟩ => show win2_0.index t (0 : Fin 2) * 512 + 1 * r.val = R.val; omega
  | ⟨1, _⟩ => show win2_0.index t (1 : Fin 2) * 1024 + 1 * d.val = d.val; omega

/-- The weight block at every point is the whole weight matrix. -/
theorem weights_block_apply2 (c : Dev nD) (t : Fin cfg2.N) (e d : Fin 1024) :
    (iblk2 V c 1 t : Vec Ideal S1024x1024 .f32) (ix2 e d) = (V c main_arg5 : S1024x1024.Idx → EReal) (ix2 e d) := by
  obtain ⟨-, -, e0, e1, -⟩ := index_facts2 t
  unfold iblk2
  rw [View.read_apply]
  show V c main_arg5 _ = V c main_arg5 _
  congr 1
  funext a
  apply Fin.ext
  match a with
  | ⟨0, _⟩ => show win2_1.index t (0 : Fin 2) * 1024 + 1 * e.val = e.val; omega
  | ⟨1, _⟩ => show win2_1.index t (1 : Fin 2) * 1024 + 1 * d.val = d.val; omega

/-- The bias block at every point is the whole bias row. -/
theorem bias_block_apply2 (c : Dev nD) (t : Fin cfg2.N) (e : Fin 1024) :
    (iblk2 V c 2 t : Vec Ideal S1x1024 .f32) (ix2 (0 : Fin 1) e) = (V c main_v5 : S1x1024.Idx → EReal) (ix2 (0 : Fin 1) e) := by
  obtain ⟨-, -, -, -, e0, e1, -⟩ := index_facts2 t
  unfold iblk2
  rw [View.read_apply]
  show V c main_v5 _ = V c main_v5 _
  congr 1
  funext a
  apply Fin.ext
  match a with
  | ⟨0, _⟩ => show win2_2.index t (0 : Fin 2) * 1 + 1 * (0 : Fin 1).val = (0 : Fin 1).val; omega
  | ⟨1, _⟩ => show win2_2.index t (1 : Fin 2) * 1024 + 1 * e.val = e.val; omega

/-- One block against the specification, over the literal types: if `x0` is rows `512 T …` of `X`, `x1` is `W` and
    `x2` is `b`, the stored value at `j` is `X · Wᵀ + b` at the array index `i` that `j` names (row `512 T + j 0`, column `j 1`). -/
theorem stored_eq_linG2 (X : S4096x1024.Idx → EReal) (W : S1024x1024.Idx → EReal) (b : S1x1024.Idx → EReal)
    (x0 : Vec Ideal S512x1024 .f32) (x1 : Vec Ideal S1024x1024 .f32) (x2 : Vec Ideal S1x1024 .f32) (T : ℕ)
    (h0 : ∀ (r : Fin 512) (d : Fin 1024) (R : Fin 4096), R.val = T * 512 + r.val → x0 (ix2 r d) = X (ix2 R d))
    (h1 : ∀ e d : Fin 1024, x1 (ix2 e d) = W (ix2 e d))
    (h2 : ∀ e : Fin 1024, x2 (ix2 (0 : Fin 1) e) = b (ix2 (0 : Fin 1) e))
    (j : S512x1024.Idx) (i : S4096x1024.Idx) (hi0 : (i 0).val = T * 512 + (j 0).val) (hi1 : (i 1).val = (j 1).val) :
    k2_pay1 x0 x1 x2 j = Cert.Spec.linG X W b i := by
  obtain ⟨r, e, rfl⟩ : ∃ (r : Fin 512) (e : Fin 1024), j = ix2 r e := ⟨j 0, j 1, eq_ix2 j⟩
  rw [stored_apply2]
  unfold Cert.Spec.linG Cert.Spec.linAt
  have hR : (⟨(i 0).val, (i 0).isLt⟩ : Fin 4096).val = T * 512 + r.val := hi0
  have hE : (⟨(i 1).val, (i 1).isLt⟩ : Fin 1024) = e := Fin.ext hi1
  rw [hE, h2 e]
  congr 1
  refine Finset.sum_congr rfl fun d _ => ?_
  rw [h0 r d _ hR, h1 e d]

/-- WHAT POINT `t` WRITES BACK is block `t` of `x · Wᵀ + b` of the three input arrays as the region finds them. -/
theorem flushed_eq2 (c : Dev nD) (t : Fin cfg2.N) :
    (dat2 (F := Ideal) V c).flushed 3 t
      = ((cfg2.win 3).blk t).view.read (Elt Ideal) (Cert.Spec.linG (V c main_v0) (V c main_arg5) (V c main_v5)) := by
  show (cfg2.win 3).cut (grid2.coords t) ((dat2 V c).after 3 t) = _
  rw [after2_3]
  unfold out2_3
  rw [View.canon_unit_zero offsets_zero2]
  simp only [View.ld_unit_zero (S := S512x1024) offsets_zero2, View.ld_unit_zero (S := S1024x1024) offsets_zero2,
    View.ld_unit_zero (S := S1x1024) offsets_zero2]
  obtain ⟨-, -, -, -, -, -, e0, e1⟩ := index_facts2 t
  funext j
  show k2_pay1 (iblk2 V c 0 t) (iblk2 V c 1 t) (iblk2 V c 2 t) j
    = Cert.Spec.linG (V c main_v0) (V c main_arg5) (V c main_v5) (((cfg2.win 3).blk t).view.emb j)
  refine stored_eq_linG2 (V c main_v0) (V c main_arg5) (V c main_v5) (iblk2 V c 0 t) (iblk2 V c 1 t) (iblk2 V c 2 t) t.val
    (fun r d R hR => tokens_block_apply2 V c t r d R hR) (weights_block_apply2 V c t) (bias_block_apply2 V c t)
    j (((cfg2.win 3).blk t).view.emb j) ?_ ?_
  · show win2_3.index t (0 : Fin 2) * 512 + 1 * (j 0).val = t.val * 512 + (j 0).val; omega
  · show win2_3.index t (1 : Fin 2) * 1024 + 1 * (j 1).val = (j 1).val; omega

/-- An index of the output array is in point `t`'s block iff each coordinate is in the block's range on its axis. -/
theorem mem_block2 (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v6).slice (win2_3.rect t)).set ↔ _
  rw [View.set_slice_whole, Rect.mem_set_unit]
  exact Iff.rfl

/-- THE COVER: row `R` of the output lies in the block of the point `R / 512`, and every point writes its block back. -/
theorem covered2 (i : S4096x1024.Idx) :
    ∃ t : Fin cfg2.N, (cfg2.win 3).flush t = true ∧ i ∈ ((cfg2.win 3).blk t).view.set := by
  have hN : cfg2.N = 8 := N_2
  have hi0 : (i 0).val < 4096 := (i 0).isLt
  have hi1 : (i 1).val < 1024 := (i 1).isLt
  obtain ⟨t, ht⟩ : ∃ t : Fin cfg2.N, t.val = (i 0).val / 512 := ⟨⟨(i 0).val / 512, by rw [hN]; omega⟩, rfl⟩
  obtain ⟨-, -, -, -, -, -, e0, e1⟩ := index_facts2 t
  refine ⟨t, flush2_3 t, ?_⟩
  rw [mem_block2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE OUTPUT ARRAY after the region: `x · Wᵀ + b` on 4096 rows, of the token array, the weight matrix and the bias row
    as the region finds them. -/
theorem final2 (c : Dev nD) :
    (dat2 (F := Ideal) V c).arrAt 3 cfg2.N = Cert.Spec.linG (V c main_v0) (V c main_arg5) (V c main_v5) :=
  (dat2 (F := Ideal) V c).arrAt_eq_of_cover 3 (Cert.Spec.linG (V c main_v0) (V c main_arg5) (V c main_v5))
    (fun t _ => flushed_eq2 V c t) covered2

end Cert.KernelIdeal.LinValue

end
-- ==== Proof.LinValue4.lean ====
/-
  The last projection of the layer, read off the kernel program's fifth region.

  The region runs over eight grid points.  Point `t` holds rows `512 t … 512 t + 511` of the merged attention output
  (a `[4096, 1024]` array), the whole weight matrix (`[1024, 1024]`, stored output feature by input feature) and the
  bias row (`[1, 1024]`); it contracts each token row with each weight row over the 1024 input features, adds the bias
  entry of the output feature, and writes rows `512 t … 512 t + 511` of the output back.  On the extended reals a change
  of number format is the identity, so the entry written at row `p`, feature `e` is `∑ d, x (p, d) · W (e, d) + b (0, e)`,
  and since the eight row blocks fill the 4096 rows the output array is `Spec.linG` of the three arrays as the region
  finds them.
-/
import proofs.«110700_j28905129902577_1_alg».proof.Proof.Gen.KernelIdeal.Frame
import proofs.«110700_j28905129902577_1_alg».proof.Proof.Spec
import proofs.«110700_j28905129902577_1_alg».proof.Proof.LibTransposedMatmul
import Idealize.ShloMosaic.Lib.Pipeline.Value
import Idealize.ShloMosaic.Lib.ValueLayout

noncomputable section

namespace Cert.KernelIdeal.LinValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a whole-buffer access, as the constant function. -/
theorem hz4 : (![0, 0] : Fin 2 → Nat) = fun _ => 0 := funext fun a => by fin_cases a <;> rfl

/-- The body's payload at row `r`, output feature `e` of its block. -/
theorem pay4_apply (x0 : Vec Ideal S512x1024 .bf16) (x1 : Vec Ideal S1024x1024 .f32) (x2 : Vec Ideal S1x1024 .f32)
    (r : Fin 512) (e : Fin 1024) :
    k4_pay1 x0 x1 x2 (ix2 r e) = (∑ d : Fin 1024, x0 (ix2 r d) * x1 (ix2 e d)) + x2 (ix2 (0 : Fin 1) e) := by
  unfold k4_pay1
  refine congrArg₂ (· + ·) ?_ ?_
  · refine (Cert.TransposedMatmul.matmul_transposedRhs_zero_apply (M := 512) (K := 1024) (N := 1024)
      (shapeCast S512x1024 x0 shapeCasts_S512x1024_S512x1024) (truncf .bf16 x1 bitsLt_bf16_f32) none r e).trans ?_
    refine Finset.sum_congr rfl fun d _ => ?_
    rw [shapeCast_self]
    rfl
  · refine (broadcastTo_1b_ab_apply (shapeCast S1x1024 x2 shapeCasts_S1x1024_S1x1024) broadcasts_S1x1024_S512x1024 r e).trans ?_
    rw [shapeCast_self]

/-- One entry of the payload against the specification: if the three loaded blocks agree with the arrays `X`, `W`,
    `b` along row `i 0` and output feature `i 1`, the payload's entry is `x · Wᵀ + b` there. -/
theorem lin_entry (X : Cert.Spec.T2.Idx → EReal) (W : Cert.Spec.Wm.Idx → EReal) (b : Cert.Spec.B2.Idx → EReal)
    (x0 : Vec Ideal S512x1024 .bf16) (x1 : Vec Ideal S1024x1024 .f32) (x2 : Vec Ideal S1x1024 .f32)
    (i : Cert.Spec.T2.Idx) (r : Fin 512) (e : Fin 1024)
    (h0 : ∀ d : Fin 1024, x0 (ix2 r d) = X (ix2 (⟨(i 0).val, (i 0).isLt⟩ : Fin 4096) d))
    (h1 : ∀ d : Fin 1024, x1 (ix2 e d) = W (ix2 (⟨(i 1).val, (i 1).isLt⟩ : Fin 1024) d))
    (h2 : x2 (ix2 (0 : Fin 1) e) = b (ix2 (0 : Fin 1) (⟨(i 1).val, (i 1).isLt⟩ : Fin 1024))) :
    k4_pay1 x0 x1 x2 (ix2 r e) = Cert.Spec.linG X W b i := by
  rw [pay4_apply, h2]
  show _ = (∑ d : Fin 1024, X (ix2 (⟨(i 0).val, (i 0).isLt⟩ : Fin 4096) d) * W (ix2 (⟨(i 1).val, (i 1).isLt⟩ : Fin 1024) d))
    + b (ix2 (0 : Fin 1) (⟨(i 1).val, (i 1).isLt⟩ : Fin 1024))
  refine congrArg (· + _) (Finset.sum_congr rfl fun d _ => ?_)
  rw [h0, h1]

/-- The printed index maps, decided over the grid: the row-block windows (the tokens, the output) sit at block
    `(t, 0)`, the weights and the bias at block `(0, 0)`. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- WHAT POINT `t` WRITES BACK is block `t` of `x · Wᵀ + b` of the arrays as the region finds them. -/
theorem flushed4_eq (c : Dev nD) (t : Fin cfg4.N) :
    (dat4 (F := Ideal) V c).flushed 3 t
      = ((cfg4.win 3).blk t).view.read (Elt Ideal) (Cert.Spec.linG (V c main_v20) (V c main_arg7) (V c main_v21)) := by
  show (cfg4.win 3).cut (grid4.coords t) ((dat4 V c).after 3 t) = _
  rw [after4_3]
  unfold out4_3
  rw [View.canon_unit_zero hz4]
  simp only [View.ld_unit_zero (S := S512x1024) hz4, View.ld_unit_zero (S := S1024x1024) hz4, View.ld_unit_zero (S := S1x1024) hz4]
  obtain ⟨e0, e1, e2, e3, e4, e5, e6, e7⟩ := idx_facts4 t
  funext j
  obtain ⟨r, e, rfl⟩ : ∃ (r : Fin 512) (e : Fin 1024), j = ix2 r e := ⟨j 0, j 1, eq_ix2 j⟩
  show k4_pay1 (iblk4 V c 0 t) (iblk4 V c 1 t) (iblk4 V c 2 t) (ix2 r e)
    = Cert.Spec.linG (V c main_v20) (V c main_arg7) (V c main_v21) (((cfg4.win 3).blk t).view.emb (ix2 r e))
  refine lin_entry (V c main_v20) (V c main_arg7) (V c main_v21) (iblk4 V c 0 t) (iblk4 V c 1 t) (iblk4 V c 2 t)
    (((cfg4.win 3).blk t).view.emb (ix2 r e)) r e (fun d => ?_) (fun d => ?_) ?_
  · -- the token block's row `r` is row `512 t + r` of the token array
    show V c main_v20 (((cfg4.win 0).blk t).view.emb (ix2 r d)) = _
    refine congrArg (V c main_v20) ?_
    funext a; apply Fin.ext
    match a with
    | ⟨0, _⟩ => show win4_0.index t (0 : Fin 2) * 512 + 1 * r.val = win4_3.index t (0 : Fin 2) * 512 + 1 * r.val; omega
    | ⟨1, _⟩ => show win4_0.index t (1 : Fin 2) * 1024 + 1 * d.val = d.val; omega
  · -- the weight block is the whole weight matrix, and the output block's column `e` is column `e`
    show V c main_arg7 (((cfg4.win 1).blk t).view.emb (ix2 e d)) = _
    refine congrArg (V c main_arg7) ?_
    funext a; apply Fin.ext
    match a with
    | ⟨0, _⟩ => show win4_1.index t (0 : Fin 2) * 1024 + 1 * e.val = win4_3.index t (1 : Fin 2) * 1024 + 1 * e.val; omega
    | ⟨1, _⟩ => show win4_1.index t (1 : Fin 2) * 1024 + 1 * d.val = d.val; omega
  · -- the bias block is the whole bias row
    show V c main_v21 (((cfg4.win 2).blk t).view.emb (ix2 (0 : Fin 1) e)) = _
    refine congrArg (V c main_v21) ?_
    funext a; apply Fin.ext
    match a with
    | ⟨0, _⟩ => show win4_2.index t (0 : Fin 2) * 1 + 1 * 0 = 0; omega
    | ⟨1, _⟩ => show win4_2.index t (1 : Fin 2) * 1024 + 1 * e.val = win4_3.index t (1 : Fin 2) * 1024 + 1 * e.val; omega

/-- An index of the output array is in point `t`'s block iff each coordinate is in the block's range on its axis. -/
theorem mem_blk4 (t : Fin cfg4.N) (i : S4096x1024.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v22).slice (win4_3.rect t)).set ↔ _
  rw [View.set_slice_whole, Rect.mem_set_unit]
  exact Iff.rfl

/-- Every row block of the output is SOME point's. -/
theorem idx_onto4 : ∀ q : Fin 8, ∃ t : Fin cfg4.N, win4_3.index t (0 : Fin 2) = q.val ∧ win4_3.index t (1 : Fin 2) = 0 :=
  (by decide +kernel : ∀ q : Fin 8, ∃ t : Fin grid4.N, win4_3.index t (0 : Fin 2) = q.val ∧ win4_3.index t (1 : Fin 2) = 0)

/-- THE COVER: the eight row blocks of 512 rows fill the 4096 rows; row `p` lies in block `p / 512`. -/
theorem cover4 (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, q0, q1⟩ := idx_onto4 ⟨(i 0).val / 512, by omega⟩
  have q0' : win4_3.index t (0 : Fin 2) = (i 0).val / 512 := q0
  refine ⟨t, flush4_3 t, ?_⟩
  rw [mem_blk4]
  intro a
  match a with
  | ⟨0, _⟩ =>
    show win4_3.index t (0 : Fin 2) * 512 ≤ (i 0).val ∧ (i 0).val < win4_3.index t (0 : Fin 2) * 512 + 512
    omega
  | ⟨1, _⟩ =>
    show win4_3.index t (1 : Fin 2) * 1024 ≤ (i 1).val ∧ (i 1).val < win4_3.index t (1 : Fin 2) * 1024 + 1024
    omega

/-- THE OUTPUT ARRAY after the region: every point writes back its block of `x · Wᵀ + b`, and the blocks cover the
    array, so the array is `x · Wᵀ + b` of the token array, the weights and the bias row as the region finds them. -/
theorem final4 (c : Dev nD) :
    (dat4 (F := Ideal) V c).arrAt 3 cfg4.N = Cert.Spec.linG (V c main_v20) (V c main_arg7) (V c main_v21) :=
  (dat4 (F := Ideal) V c).arrAt_eq_of_cover 3 _ (fun t _ => flushed4_eq V c t) (fun i => cover4 i)

end Cert.KernelIdeal.LinValue

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.AttValue.lean ====
/-
  The attention region's output array, as one function of its three input arrays.

  The region runs over a grid of 32 × 4 points: point `(h, g)` takes rows `512 g … 512 g + 511` of batch·head `h` of the
  queries, and the whole slice `h` of the keys and of the values.  It forms the logits `q · kᵀ` (512 × 2048, each entry a
  dot product over the 64 head features), scales them by 3.75, takes the sine, multiplies the result by the values
  (512 × 64, each entry a sum over the 2048 keys) and writes that block back as rows `512 g … 512 g + 511` of batch·head `h`
  of the output.  On the extended reals the format changes are the identity, so every entry `(h, q, d)` of the output is
      ∑ k, sin ((∑ j, Q (h, q, j) * K (h, k, j)) * 3.75) * V (h, k, d),
  and the 128 blocks tile the output array: entry `(h, q, d)` belongs to the point `(h, q / 512)`.
-/
import proofs.«110700_j28905129902577_1_alg».proof.Proof.Gen.KernelIdeal.Frame
import proofs.«110700_j28905129902577_1_alg».proof.Proof.Spec
import proofs.«110700_j28905129902577_1_alg».proof.Proof.LibTransposedMatmul
import proofs.«110700_j28905129902577_1_alg».proof.Proof.LibPlainMatmul
import Idealize.ShloMosaic.Lib.Pipeline.Value
import Idealize.ShloMosaic.Lib.ValueLayout

noncomputable section

namespace Cert.KernelIdeal.AttValue

open Idealize.ShloMosaic Idealize.ShloMosaic.TcCoe Idealize.ShloMosaic.ValueIdx Idealize.SL.Sem
open Cert.KernelIdeal Cert.KernelIdeal.Gen

/-! ## The body's value at one entry of its block -/

/-- The logits: the product of the query block with the transposed key slice, into zeros, at query row `q` and key
    `k`, is the dot product of the two rows over the 64 head features. -/
theorem logits_apply (a : FVec Ideal S512x64 .bf16) (b : FVec Ideal S2048x64 .bf16) (q : Fin 512) (k : Fin 2048) :
    matmul dot_S512x64_S2048x64_S512x2048_1_1_0_0_n_n none a b (constant (F := Ideal) S512x2048 .f32 0x00000000#32) (ix2 q k)
      = ∑ j : Fin 64, a (ix2 q j) * b (ix2 k j) :=
  Cert.TransposedMatmul.matmul_transposedRhs_zero_apply (M := 512) (K := 64) (N := 2048) a b none q k

/-- The weighted values: the product of the weights with the value slice, into zeros, at query row `q` and value
    feature `d`, is the sum over the 2048 keys. -/
theorem weighted_apply (p : FVec Ideal S512x2048 .bf16) (v : FVec Ideal S2048x64 .bf16) (q : Fin 512) (d : Fin 64) :
    matmul dot_S512x2048_S2048x64_S512x64_1_0_0_1_n_n none p v (constant (F := Ideal) S512x64 .f32 0x00000000#32) (ix2 q d)
      = ∑ k : Fin 2048, p (ix2 q k) * v (ix2 k d) :=
  Cert.PlainMatmul.matmul_plain_zero_apply (M := 512) (K := 2048) (N := 64) p v none q d

/-- The body's payload at entry `(u, q, d)` of the output block, from the three loaded blocks: the unit axis is
    dropped from each block, the logits of query row `q` against every key are scaled by 3.75 and passed through the
    sine, and the result weights the value rows; the format changes are the identity on the extended reals. -/
theorem pay_apply (x0 : Vec Ideal S1x512x64 .bf16) (x1 x2 : Vec Ideal S1x2048x64 .bf16)
    (u : Fin 1) (q : Fin 512) (d : Fin 64) :
    k3_pay1 x0 x1 x2 (ix3 u q d)
      = ∑ k : Fin 2048, Ideal.sin ((∑ j : Fin 64, x0 (ix3 (0 : Fin 1) q j) * x1 (ix3 (0 : Fin 1) k j)) * Cert.Spec.c375)
          * x2 (ix3 (0 : Fin 1) k d) := by
  unfold k3_pay1
  refine (shapeCast_ab_1ab_apply _ _ u q d).trans ?_
  refine (weighted_apply _ _ q d).trans ?_
  refine Finset.sum_congr rfl fun k _ => ?_
  refine congrArg₂ (· * ·) ?_ (shapeCast_1ab_ab_apply x2 _ k d)
  refine congrArg Ideal.sin ?_
  refine congrArg (· * Cert.Spec.c375) ?_
  refine (logits_apply _ _ q k).trans ?_
  refine Finset.sum_congr rfl fun j _ => ?_
  exact congrArg₂ (· * ·) (shapeCast_1ab_ab_apply x0 _ q j) (shapeCast_1ab_ab_apply x1 _ k j)

/-- The body's value at an entry of its block, read against whole arrays: when the query block's row is row `i 1` of
    batch·head `i 0` of `Q`, and the key and value blocks are the whole slice `i 0` of `K` and `W`, the entry is the
    attention of that batch·head at query `i 1` and value feature `i 2`. -/
theorem block_entry (Q K W : S32x2048x64.Idx → EReal)
    (x0 : Vec Ideal S1x512x64 .bf16) (x1 x2 : Vec Ideal S1x2048x64 .bf16) (i : S32x2048x64.Idx) (y : S1x512x64.Idx)
    (e0 : ∀ j : Fin 64, x0 (ix3 (0 : Fin 1) (y 1) j) = Q (ix3 (i 0) (i 1) j))
    (e1 : ∀ (k : Fin 2048) (j : Fin 64), x1 (ix3 (0 : Fin 1) k j) = K (ix3 (i 0) k j))
    (e2 : ∀ k : Fin 2048, x2 (ix3 (0 : Fin 1) k (y 2)) = W (ix3 (i 0) k (i 2))) :
    k3_pay1 x0 x1 x2 y = Cert.Spec.attG Q K W i := by
  refine (congrArg (k3_pay1 x0 x1 x2) (eq_ix3 y)).trans ?_
  refine (pay_apply x0 x1 x2 (y 0) (y 1) (y 2)).trans ?_
  show _ = Cert.Spec.attAt Q K W (i 0) (i 1) (i 2)
  unfold Cert.Spec.attAt
  refine Finset.sum_congr rfl fun k _ => ?_
  exact congrArg₂ (· * ·)
    (congrArg Ideal.sin (congrArg (· * Cert.Spec.c375)
      (Finset.sum_congr rfl fun j _ => congrArg₂ (· * ·) (e0 j) (e1 k j))))
    (e2 k)

/-! ## From the blocks to the array -/

variable (V : (c : Dev nD) → (b : Ref sig .tc) → Buf (Elt Ideal) ((c : Thread nD τ).loc b))

/-- The origin of a rank-3 block. -/
theorem origin_zero : (![0, 0, 0] : Fin 3 → Nat) = fun _ => 0 := funext fun a => by fin_cases a <;> rfl

/-- The index maps over the 32 × 4 grid: the query block moves with the output block (same batch·head, same group of
    512 query rows), the key and value blocks are the whole slice of the output's batch·head, no window moves along the
    feature axis, and the output's block indices stay in their ranges. -/
theorem blocks_follow_output : ∀ t : Fin cfg3.N,
    win3_0.index t (0 : Fin 3) = win3_3.index t (0 : Fin 3)
    ∧ win3_0.index t (1 : Fin 3) = win3_3.index t (1 : Fin 3)
    ∧ win3_0.index t (2 : Fin 3) = 0
    ∧ win3_1.index t (0 : Fin 3) = win3_3.index t (0 : Fin 3)
    ∧ win3_1.index t (1 : Fin 3) = 0
    ∧ win3_1.index t (2 : Fin 3) = 0
    ∧ win3_2.index t (0 : Fin 3) = win3_3.index t (0 : Fin 3)
    ∧ win3_2.index t (1 : Fin 3) = 0
    ∧ win3_2.index t (2 : Fin 3) = 0
    ∧ win3_3.index t (0 : Fin 3) ≤ 31
    ∧ win3_3.index t (1 : Fin 3) ≤ 3
    ∧ win3_3.index t (2 : Fin 3) = 0 :=
  (by decide +kernel : ∀ t : Fin grid3.N, _)

/-- Every batch·head and every group of 512 query rows is some point's output block. -/
theorem every_head_group_has_point : ∀ (h : Fin 32) (g : Fin 4), ∃ t : Fin cfg3.N, win3_3.index t = ![h.val, g.val, 0] :=
  (by decide +kernel : ∀ (h : Fin 32) (g : Fin 4), ∃ t : Fin grid3.N, win3_3.index t = ![h.val, g.val, 0])

/-- What point `t` writes back is its block of the attention of the three arrays as the region finds them. -/
theorem written_block_eq (c : Dev nD) (t : Fin cfg3.N) :
    (dat3 (F := Ideal) V c).flushed 3 t
      = ((cfg3.win 3).blk t).view.read (Elt Ideal) (Cert.Spec.attG (V c main_v9) (V c main_v12) (V c main_v15)) := by
  show (cfg3.win 3).cut (grid3.coords t) ((dat3 (F := Ideal) V c).after 3 t) = _
  rw [after3_3]
  unfold out3_3
  rw [View.canon_unit_zero origin_zero]
  simp only [View.ld_unit_zero (S := S1x512x64) origin_zero, View.ld_unit_zero (S := S1x2048x64) origin_zero]
  obtain ⟨a0, a1, a2, b0, b1, b2, c0, c1, c2, o0, o1, o2⟩ := blocks_follow_output t
  funext y
  show k3_pay1 (iblk3 V c 0 t) (iblk3 V c 1 t) (iblk3 V c 2 t) y
    = Cert.Spec.attG (V c main_v9) (V c main_v12) (V c main_v15) (((cfg3.win 3).blk t).view.emb y)
  have hy0 : (y 0).val < 1 := (y 0).isLt
  refine block_entry (V c main_v9) (V c main_v12) (V c main_v15) (iblk3 V c 0 t) (iblk3 V c 1 t) (iblk3 V c 2 t)
    (((cfg3.win 3).blk t).view.emb y) y (fun j => ?_) (fun k j => ?_) (fun k => ?_)
  · -- the query block's row `y 1` is row `512 · g + y 1` of the output's batch·head
    show V c main_v9 (((cfg3.win 0).blk t).view.emb (ix3 (0 : Fin 1) (y 1) j)) = V c main_v9 _
    refine congrArg (V c main_v9) (funext fun a => Fin.ext ?_)
    match a with
    | ⟨0, _⟩ => show win3_0.index t (0 : Fin 3) * 1 + 1 * 0 = win3_3.index t (0 : Fin 3) * 1 + 1 * (y 0).val; omega
    | ⟨1, _⟩ => show win3_0.index t (1 : Fin 3) * 512 + 1 * (y 1).val = win3_3.index t (1 : Fin 3) * 512 + 1 * (y 1).val; omega
    | ⟨2, _⟩ => show win3_0.index t (2 : Fin 3) * 64 + 1 * j.val = j.val; omega
  · -- the key block is the whole slice of the output's batch·head
    show V c main_v12 (((cfg3.win 1).blk t).view.emb (ix3 (0 : Fin 1) k j)) = V c main_v12 _
    refine congrArg (V c main_v12) (funext fun a => Fin.ext ?_)
    match a with
    | ⟨0, _⟩ => show win3_1.index t (0 : Fin 3) * 1 + 1 * 0 = win3_3.index t (0 : Fin 3) * 1 + 1 * (y 0).val; omega
    | ⟨1, _⟩ => show win3_1.index t (1 : Fin 3) * 2048 + 1 * k.val = k.val; omega
    | ⟨2, _⟩ => show win3_1.index t (2 : Fin 3) * 64 + 1 * j.val = j.val; omega
  · -- so is the value block, and the output block does not move along the feature axis
    show V c main_v15 (((cfg3.win 2).blk t).view.emb (ix3 (0 : Fin 1) k (y 2))) = V c main_v15 _
    refine congrArg (V c main_v15) (funext fun a => Fin.ext ?_)
    match a with
    | ⟨0, _⟩ => show win3_2.index t (0 : Fin 3) * 1 + 1 * 0 = win3_3.index t (0 : Fin 3) * 1 + 1 * (y 0).val; omega
    | ⟨1, _⟩ => show win3_2.index t (1 : Fin 3) * 2048 + 1 * k.val = k.val; omega
    | ⟨2, _⟩ => show win3_2.index t (2 : Fin 3) * 64 + 1 * (y 2).val = win3_3.index t (2 : Fin 3) * 64 + 1 * (y 2).val; omega

/-- An index of the output array is in point `t`'s block iff each coordinate is in the block's range on its axis. -/
theorem mem_output_block (t : Fin cfg3.N) (i : S32x2048x64.Idx) :
    i ∈ ((cfg3.win 3).blk t).view.set ↔ ∀ a : Fin 3, win3_3.index t a * S1x512x64.size a ≤ (i a).val
      ∧ (i a).val < win3_3.index t a * S1x512x64.size a + S1x512x64.size a := by
  show i ∈ ((View.whole main_v16).slice (win3_3.rect t)).set ↔ _
  rw [View.set_slice_whole, Rect.mem_set_unit]
  exact Iff.rfl

/-- Every index `(h, q, d)` of the output array is written back by the point of batch·head `h` and query group
    `q / 512`. -/
theorem output_covered (i : S32x2048x64.Idx) :
    ∃ t : Fin cfg3.N, (cfg3.win 3).flush t = true ∧ i ∈ ((cfg3.win 3).blk t).view.set := by
  have hi0 : (i 0).val < 32 := (i 0).isLt
  have hi1 : (i 1).val < 2048 := (i 1).isLt
  have hi2 : (i 2).val < 64 := (i 2).isLt
  obtain ⟨t, ht⟩ := every_head_group_has_point ⟨(i 0).val, hi0⟩ ⟨(i 1).val / 512, by omega⟩
  have q0 : win3_3.index t (0 : Fin 3) = (i 0).val := congrFun ht 0
  have q1 : win3_3.index t (1 : Fin 3) = (i 1).val / 512 := congrFun ht 1
  have q2 : win3_3.index t (2 : Fin 3) = 0 := congrFun ht 2
  refine ⟨t, flush3_3 t, ?_⟩
  rw [mem_output_block]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 64 ≤ (i 2).val ∧ (i 2).val < win3_3.index t (2 : Fin 3) * 64 + 64; omega

/-- The output array after the region is the attention of the three input arrays as the region finds them. -/
theorem final3 (c : Dev nD) :
    (dat3 (F := Ideal) V c).arrAt 3 cfg3.N = Cert.Spec.attG (V c main_v9) (V c main_v12) (V c main_v15) :=
  (dat3 (F := Ideal) V c).arrAt_eq_of_cover 3 (Cert.Spec.attG (V c main_v9) (V c main_v12) (V c main_v15))
    (fun t _ => written_block_eq V c t) output_covered

end Cert.KernelIdeal.AttValue

end
-- ==== Proof.KernelFold.lean ====
/-
  The kernel program's result buffer, read back through @main.

  @main is six stretches of host operations (reshapes and transposes) around five kernel regions.  The buffer
  contents at each boundary are a fold from the launch memory: a stretch rewrites the buffers its operations write,
  a region rewrites its output array with what its grid points flush.  Walking the fold from the launch to the
  return, every buffer a later step reads is named as a function of the nine arguments: the three projections on
  4096 rows, their head splits, the attention output, its merge, the last projection, and the final reshape — which
  is `Spec.kform` of the arguments.
-/
import proofs.«110700_j28905129902577_1_alg».proof.Proof.Gen.KernelIdeal.Frame
import proofs.«110700_j28905129902577_1_alg».proof.Proof.Spec
import proofs.«110700_j28905129902577_1_alg».proof.Proof.LinValue0
import proofs.«110700_j28905129902577_1_alg».proof.Proof.LinValue1
import proofs.«110700_j28905129902577_1_alg».proof.Proof.LinValue2
import proofs.«110700_j28905129902577_1_alg».proof.Proof.LinValue4
import proofs.«110700_j28905129902577_1_alg».proof.Proof.AttValue
import Idealize.ShloMosaic.Lib.StableHlo.Run

noncomputable section

namespace Cert.KernelIdeal.Fold

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-- the nine arguments as launched -/
abbrev A0 : T3.Idx → EReal := m ((c : Thread nD τ).loc main_arg0)
abbrev A1 : Wm.Idx → EReal := m ((c : Thread nD τ).loc main_arg1)
abbrev A2 : B1.Idx → EReal := m ((c : Thread nD τ).loc main_arg2)
abbrev A3 : Wm.Idx → EReal := m ((c : Thread nD τ).loc main_arg3)
abbrev A4 : B1.Idx → EReal := m ((c : Thread nD τ).loc main_arg4)
abbrev A5 : Wm.Idx → EReal := m ((c : Thread nD τ).loc main_arg5)
abbrev A6 : B1.Idx → EReal := m ((c : Thread nD τ).loc main_arg6)
abbrev A7 : Wm.Idx → EReal := m ((c : Thread nD τ).loc main_arg7)
abbrev A8 : B1.Idx → EReal := m ((c : Thread nD τ).loc main_arg8)

/-- the tokens as 4096 rows -/
abbrev Xr : T2.Idx → EReal := shapeCast T2 (A0 m c) hT3T2
/-- the four biases as one row each -/
abbrev Bq : B2.Idx → EReal := shapeCast B2 (A2 m c) hB1B2
abbrev Bk : B2.Idx → EReal := shapeCast B2 (A4 m c) hB1B2
abbrev Bv : B2.Idx → EReal := shapeCast B2 (A6 m c) hB1B2
abbrev Bo : B2.Idx → EReal := shapeCast B2 (A8 m c) hB1B2
/-- the three projections on 4096 rows -/
abbrev Qr : T2.Idx → EReal := linG (Xr m c) (A1 m c) (Bq m c)
abbrev Kr : T2.Idx → EReal := linG (Xr m c) (A3 m c) (Bk m c)
abbrev Vr : T2.Idx → EReal := linG (Xr m c) (A5 m c) (Bv m c)
/-- the attention output on 32 flattened heads -/
abbrev Oh : H3.Idx → EReal := attG (kheads (Qr m c)) (kheads (Kr m c)) (kheads (Vr m c))

theorem linG_congr {X X' : T2.Idx → EReal} {W W' : Wm.Idx → EReal} {b b' : B2.Idx → EReal}
    (h1 : X = X') (h2 : W = W') (h3 : b = b') : linG X W b = linG X' W' b' := by subst h1 h2 h3; rfl

theorem attG_congr {Q Q' K K' V V' : H3.Idx → EReal}
    (h1 : Q = Q') (h2 : K = K') (h3 : V = V') : attG Q K V = attG Q' K' V' := by subst h1 h2 h3; rfl

/-! ## Boundary 1: after the first stretch (the tokens and the first bias reshaped) -/

theorem b1_v0 : W1 m ρ c (Proc.devRef .tc main_v0) = Xr m c := by
  show StableHlo.after hostOps0 (W0 m ρ c) (Proc.devRef .tc main_v0) = _
  after_results; rfl
theorem b1_v1 : W1 m ρ c (Proc.devRef .tc main_v1) = Bq m c := by
  show StableHlo.after hostOps0 (W0 m ρ c) (Proc.devRef .tc main_v1) = _
  after_results; rfl
theorem b1_a1 : W1 m ρ c (Proc.devRef .tc main_arg1) = (A1 m c) := by
  show StableHlo.after hostOps0 (W0 m ρ c) (Proc.devRef .tc main_arg1) = _
  after_results
theorem b1_a3 : W1 m ρ c (Proc.devRef .tc main_arg3) = (A3 m c) := by
  show StableHlo.after hostOps0 (W0 m ρ c) (Proc.devRef .tc main_arg3) = _
  after_results
theorem b1_a4 : W1 m ρ c (Proc.devRef .tc main_arg4) = (A4 m c) := by
  show StableHlo.after hostOps0 (W0 m ρ c) (Proc.devRef .tc main_arg4) = _
  after_results
theorem b1_a5 : W1 m ρ c (Proc.devRef .tc main_arg5) = (A5 m c) := by
  show StableHlo.after hostOps0 (W0 m ρ c) (Proc.devRef .tc main_arg5) = _
  after_results
theorem b1_a6 : W1 m ρ c (Proc.devRef .tc main_arg6) = (A6 m c) := by
  show StableHlo.after hostOps0 (W0 m ρ c) (Proc.devRef .tc main_arg6) = _
  after_results
theorem b1_a7 : W1 m ρ c (Proc.devRef .tc main_arg7) = (A7 m c) := by
  show StableHlo.after hostOps0 (W0 m ρ c) (Proc.devRef .tc main_arg7) = _
  after_results
theorem b1_a8 : W1 m ρ c (Proc.devRef .tc main_arg8) = (A8 m c) := by
  show StableHlo.after hostOps0 (W0 m ρ c) (Proc.devRef .tc main_arg8) = _
  after_results

/-! ## Boundary 2: after region 0 (the query projection) -/

theorem b2_v2 : W2 m ρ c (Proc.devRef .tc main_v2) = Qr m c :=
  (W2_arr m ρ c 3).trans ((LinValue.final0 (V1 m ρ) c).trans (linG_congr (b1_v0 m ρ c) (b1_a1 m ρ c) (b1_v1 m ρ c)))
theorem b2_v0 : W2 m ρ c (Proc.devRef .tc main_v0) = Xr m c :=
  (W2_arr m ρ c 0).trans ((((dat0 (V1 m ρ) c).arrAt_in 0 rfl _).trans (A_eq0 (V1 m ρ) c 0)).trans (b1_v0 m ρ c))
theorem b2_a3 : W2 m ρ c (Proc.devRef .tc main_arg3) = (A3 m c) := (W2_of_ne m ρ c main_arg3 (by decide)).trans (b1_a3 m ρ c)
theorem b2_a4 : W2 m ρ c (Proc.devRef .tc main_arg4) = (A4 m c) := (W2_of_ne m ρ c main_arg4 (by decide)).trans (b1_a4 m ρ c)
theorem b2_a5 : W2 m ρ c (Proc.devRef .tc main_arg5) = (A5 m c) := (W2_of_ne m ρ c main_arg5 (by decide)).trans (b1_a5 m ρ c)
theorem b2_a6 : W2 m ρ c (Proc.devRef .tc main_arg6) = (A6 m c) := (W2_of_ne m ρ c main_arg6 (by decide)).trans (b1_a6 m ρ c)
theorem b2_a7 : W2 m ρ c (Proc.devRef .tc main_arg7) = (A7 m c) := (W2_of_ne m ρ c main_arg7 (by decide)).trans (b1_a7 m ρ c)
theorem b2_a8 : W2 m ρ c (Proc.devRef .tc main_arg8) = (A8 m c) := (W2_of_ne m ρ c main_arg8 (by decide)).trans (b1_a8 m ρ c)

/-! ## Boundary 3: after the second stretch (the second bias reshaped) -/

theorem b3_v3 : W3 m ρ c (Proc.devRef .tc main_v3) = Bk m c := by
  show StableHlo.after hostOps1 (W2 m ρ c) (Proc.devRef .tc main_v3) = _
  after_results; rw [b2_a4]; rfl
theorem b3_v0 : W3 m ρ c (Proc.devRef .tc main_v0) = Xr m c := by
  show StableHlo.after hostOps1 (W2 m ρ c) (Proc.devRef .tc main_v0) = _
  after_results; exact b2_v0 m ρ c
theorem b3_v2 : W3 m ρ c (Proc.devRef .tc main_v2) = Qr m c := by
  show StableHlo.after hostOps1 (W2 m ρ c) (Proc.devRef .tc main_v2) = _
  after_results; exact b2_v2 m ρ c
theorem b3_a3 : W3 m ρ c (Proc.devRef .tc main_arg3) = (A3 m c) := by
  show StableHlo.after hostOps1 (W2 m ρ c) (Proc.devRef .tc main_arg3) = _
  after_results; exact b2_a3 m ρ c
theorem b3_a5 : W3 m ρ c (Proc.devRef .tc main_arg5) = (A5 m c) := by
  show StableHlo.after hostOps1 (W2 m ρ c) (Proc.devRef .tc main_arg5) = _
  after_results; exact b2_a5 m ρ c
theorem b3_a6 : W3 m ρ c (Proc.devRef .tc main_arg6) = (A6 m c) := by
  show StableHlo.after hostOps1 (W2 m ρ c) (Proc.devRef .tc main_arg6) = _
  after_results; exact b2_a6 m ρ c
theorem b3_a7 : W3 m ρ c (Proc.devRef .tc main_arg7) = (A7 m c) := by
  show StableHlo.after hostOps1 (W2 m ρ c) (Proc.devRef .tc main_arg7) = _
  after_results; exact b2_a7 m ρ c
theorem b3_a8 : W3 m ρ c (Proc.devRef .tc main_arg8) = (A8 m c) := by
  show StableHlo.after hostOps1 (W2 m ρ c) (Proc.devRef .tc main_arg8) = _
  after_results; exact b2_a8 m ρ c

/-! ## Boundary 4: after region 1 (the key projection) -/

theorem b4_v4 : W4 m ρ c (Proc.devRef .tc main_v4) = Kr m c :=
  (W4_arr m ρ c 3).trans ((LinValue.final1 (V3 m ρ) c).trans (linG_congr (b3_v0 m ρ c) (b3_a3 m ρ c) (b3_v3 m ρ c)))
theorem b4_v0 : W4 m ρ c (Proc.devRef .tc main_v0) = Xr m c :=
  (W4_arr m ρ c 0).trans ((((dat1 (V3 m ρ) c).arrAt_in 0 rfl _).trans (A_eq1 (V3 m ρ) c 0)).trans (b3_v0 m ρ c))
theorem b4_v2 : W4 m ρ c (Proc.devRef .tc main_v2) = Qr m c := (W4_of_ne m ρ c main_v2 (by decide)).trans (b3_v2 m ρ c)
theorem b4_a5 : W4 m ρ c (Proc.devRef .tc main_arg5) = (A5 m c) := (W4_of_ne m ρ c main_arg5 (by decide)).trans (b3_a5 m ρ c)
theorem b4_a6 : W4 m ρ c (Proc.devRef .tc main_arg6) = (A6 m c) := (W4_of_ne m ρ c main_arg6 (by decide)).trans (b3_a6 m ρ c)
theorem b4_a7 : W4 m ρ c (Proc.devRef .tc main_arg7) = (A7 m c) := (W4_of_ne m ρ c main_arg7 (by decide)).trans (b3_a7 m ρ c)
theorem b4_a8 : W4 m ρ c (Proc.devRef .tc main_arg8) = (A8 m c) := (W4_of_ne m ρ c main_arg8 (by decide)).trans (b3_a8 m ρ c)

/-! ## Boundary 5: after the third stretch (the third bias reshaped) -/

theorem b5_v5 : W5 m ρ c (Proc.devRef .tc main_v5) = Bv m c := by
  show StableHlo.after hostOps2 (W4 m ρ c) (Proc.devRef .tc main_v5) = _
  after_results; rw [b4_a6]; rfl
theorem b5_v0 : W5 m ρ c (Proc.devRef .tc main_v0) = Xr m c := by
  show StableHlo.after hostOps2 (W4 m ρ c) (Proc.devRef .tc main_v0) = _
  after_results; exact b4_v0 m ρ c
theorem b5_v2 : W5 m ρ c (Proc.devRef .tc main_v2) = Qr m c := by
  show StableHlo.after hostOps2 (W4 m ρ c) (Proc.devRef .tc main_v2) = _
  after_results; exact b4_v2 m ρ c
theorem b5_v4 : W5 m ρ c (Proc.devRef .tc main_v4) = Kr m c := by
  show StableHlo.after hostOps2 (W4 m ρ c) (Proc.devRef .tc main_v4) = _
  after_results; exact b4_v4 m ρ c
theorem b5_a5 : W5 m ρ c (Proc.devRef .tc main_arg5) = (A5 m c) := by
  show StableHlo.after hostOps2 (W4 m ρ c) (Proc.devRef .tc main_arg5) = _
  after_results; exact b4_a5 m ρ c
theorem b5_a7 : W5 m ρ c (Proc.devRef .tc main_arg7) = (A7 m c) := by
  show StableHlo.after hostOps2 (W4 m ρ c) (Proc.devRef .tc main_arg7) = _
  after_results; exact b4_a7 m ρ c
theorem b5_a8 : W5 m ρ c (Proc.devRef .tc main_arg8) = (A8 m c) := by
  show StableHlo.after hostOps2 (W4 m ρ c) (Proc.devRef .tc main_arg8) = _
  after_results; exact b4_a8 m ρ c

/-! ## Boundary 6: after region 2 (the value projection) -/

theorem b6_v6 : W6 m ρ c (Proc.devRef .tc main_v6) = Vr m c :=
  (W6_arr m ρ c 3).trans ((LinValue.final2 (V5 m ρ) c).trans (linG_congr (b5_v0 m ρ c) (b5_a5 m ρ c) (b5_v5 m ρ c)))
theorem b6_v2 : W6 m ρ c (Proc.devRef .tc main_v2) = Qr m c := (W6_of_ne m ρ c main_v2 (by decide)).trans (b5_v2 m ρ c)
theorem b6_v4 : W6 m ρ c (Proc.devRef .tc main_v4) = Kr m c := (W6_of_ne m ρ c main_v4 (by decide)).trans (b5_v4 m ρ c)
theorem b6_a7 : W6 m ρ c (Proc.devRef .tc main_arg7) = (A7 m c) := (W6_of_ne m ρ c main_arg7 (by decide)).trans (b5_a7 m ρ c)
theorem b6_a8 : W6 m ρ c (Proc.devRef .tc main_arg8) = (A8 m c) := (W6_of_ne m ρ c main_arg8 (by decide)).trans (b5_a8 m ρ c)

/-! ## Boundary 7: after the fourth stretch (the three head splits) -/

theorem b7_v9 : W7 m ρ c (Proc.devRef .tc main_v9) = kheads (Qr m c) := by
  show StableHlo.after hostOps3 (W6 m ρ c) (Proc.devRef .tc main_v9) = _
  after_results; rw [b6_v2]; rfl
theorem b7_v12 : W7 m ρ c (Proc.devRef .tc main_v12) = kheads (Kr m c) := by
  show StableHlo.after hostOps3 (W6 m ρ c) (Proc.devRef .tc main_v12) = _
  after_results; rw [b6_v4]; rfl
theorem b7_v15 : W7 m ρ c (Proc.devRef .tc main_v15) = kheads (Vr m c) := by
  show StableHlo.after hostOps3 (W6 m ρ c) (Proc.devRef .tc main_v15) = _
  after_results; rw [b6_v6]; rfl
theorem b7_a7 : W7 m ρ c (Proc.devRef .tc main_arg7) = (A7 m c) := by
  show StableHlo.after hostOps3 (W6 m ρ c) (Proc.devRef .tc main_arg7) = _
  after_results; exact b6_a7 m ρ c
theorem b7_a8 : W7 m ρ c (Proc.devRef .tc main_arg8) = (A8 m c) := by
  show StableHlo.after hostOps3 (W6 m ρ c) (Proc.devRef .tc main_arg8) = _
  after_results; exact b6_a8 m ρ c

/-! ## Boundary 8: after region 3 (the attention) -/

theorem b8_v16 : W8 m ρ c (Proc.devRef .tc main_v16) = Oh m c :=
  (W8_arr m ρ c 3).trans ((AttValue.final3 (V7 m ρ) c).trans (attG_congr (b7_v9 m ρ c) (b7_v12 m ρ c) (b7_v15 m ρ c)))
theorem b8_a7 : W8 m ρ c (Proc.devRef .tc main_arg7) = (A7 m c) := (W8_of_ne m ρ c main_arg7 (by decide)).trans (b7_a7 m ρ c)
theorem b8_a8 : W8 m ρ c (Proc.devRef .tc main_arg8) = (A8 m c) := (W8_of_ne m ρ c main_arg8 (by decide)).trans (b7_a8 m ρ c)

/-! ## Boundary 9: after the fifth stretch (the merge and the last bias reshaped) -/

theorem b9_v20 : W9 m ρ c (Proc.devRef .tc main_v20) = kmerge (Oh m c) := by
  show StableHlo.after hostOps4 (W8 m ρ c) (Proc.devRef .tc main_v20) = _
  after_results; rw [b8_v16]; rfl
theorem b9_v21 : W9 m ρ c (Proc.devRef .tc main_v21) = Bo m c := by
  show StableHlo.after hostOps4 (W8 m ρ c) (Proc.devRef .tc main_v21) = _
  after_results; rw [b8_a8]; rfl
theorem b9_a7 : W9 m ρ c (Proc.devRef .tc main_arg7) = (A7 m c) := by
  show StableHlo.after hostOps4 (W8 m ρ c) (Proc.devRef .tc main_arg7) = _
  after_results; exact b8_a7 m ρ c

/-! ## Boundary 10: after region 4 (the output projection); boundary 11: the result reshaped by batch -/

theorem b10_v22 : W10 m ρ c (Proc.devRef .tc main_v22) = linG (kmerge (Oh m c)) (A7 m c) (Bo m c) :=
  (W10_arr m ρ c 3).trans ((LinValue.final4 (V9 m ρ) c).trans (linG_congr (b9_v20 m ρ c) (b9_a7 m ρ c) (b9_v21 m ρ c)))

/-- The result buffer at @main's return is `Spec.kform` of the launch contents of the nine arguments. -/
theorem result : W11 m ρ c (Proc.devRef .tc main_v23) =
    kform (A0 m c) (A1 m c) (A2 m c) (A3 m c) (A4 m c) (A5 m c) (A6 m c) (A7 m c) (A8 m c) := by
  show StableHlo.after hostOps5 (W10 m ρ c) (Proc.devRef .tc main_v23) = _
  after_results; rw [b10_v22]; rfl

end Cert.KernelIdeal.Fold

end
-- ==== Proof.RefValue.lean ====
import proofs.«110700_j28905129902577_1_alg».proof.Proof.Gen.ReferenceIdeal.Read
import proofs.«110700_j28905129902577_1_alg».proof.Proof.Spec
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.Spec

/-! ## One projection: `x · Wᵀ + b` by batch

The first four operations contract the feature axis of the tokens with axis 1 of the weight and add the bias
broadcast along batch and token.  Read at an index `(n, s, e)` that is `∑ d, X (n, s, d) * W (e, d) + b e`. -/

theorem proj_eq (X : (⟨S2x2048x1024, .f32⟩ : BufTy).Contents (Elt Ideal)) (W : (⟨S1024x1024, .f32⟩ : BufTy).Contents (Elt Ideal))
    (b : (⟨S1024, .f32⟩ : BufTy).Contents (Elt Ideal)) :
    Read.val_main_v3 (F := Ideal) X W b = projG X W b := by
  funext i
  rw [Read.val_main_v3_apply, Read.val_main_v0_apply, Read.val_main_v2_apply, Read.val_main_v1_apply]
  have hl : ∀ k : Fin 1024, Read.lidx_main_v0 i k
      = ix3 (n0 := 2) (n1 := 2048) (n2 := 1024) ⟨(i 0).val, (i 0).isLt⟩ ⟨(i 1).val, (i 1).isLt⟩ k :=
    fun k => funext fun a => by
      match a with
      | ⟨0, _⟩ => rfl
      | ⟨1, _⟩ => rfl
      | ⟨2, _⟩ => rfl
  have hr : ∀ k : Fin 1024, Read.ridx_main_v0 i k = ix2 (n0 := 1024) (n1 := 1024) ⟨(i 2).val, (i 2).isLt⟩ k :=
    fun k => funext fun a => by
      match a with
      | ⟨0, _⟩ => rfl
      | ⟨1, _⟩ => rfl
  have hb : Read.idx_main_v1 (Read.idx_main_v2 i) = ix1 (n := 1024) ⟨(i 2).val, (i 2).isLt⟩ :=
    funext fun a => by
      match a with
      | ⟨0, _⟩ => rfl
  rw [hb]
  show (∑ k : Fin 1024, X (Read.lidx_main_v0 i k) * W (Read.ridx_main_v0 i k)) + _ = _
  rw [Finset.sum_congr rfl fun k _ => by rw [hl k, hr k]]
  rfl

/-! ## The two contractions of the attention, over arbitrary operands

Scores: batch axes 0 and 1, the feature axis of both operands contracted.  Output: batch axes 0 and 1, the key
axis of the weights contracted with the key axis of the values. -/

theorem scores_apply (Q K : FVec Ideal S2x16x2048x64 .f32) (i : S2x16x2048x2048.Idx) :
    Host.dotGeneral (F := Ideal) dot_S2x16x2048x64_S2x16x2048x64_S2x16x2048x2048_3_3_2_2_01_01 none Q K i
      = ∑ k : Fin 64, Q (Read.lidx_main_v18 i k) * K (Read.ridx_main_v18 i k) := by
  simp only [Host.dotGeneral]
  rw [Ideal.dotGeneral_apply, ← Equiv.sum_comp (ValueIdx.contrEquiv1 dot_S2x16x2048x64_S2x16x2048x64_S2x16x2048x2048_3_3_2_2_01_01 64 rfl rfl).symm]
  refine Finset.sum_congr rfl fun k _ => ?_
  have hk := ValueIdx.contrEquiv1_symm_val dot_S2x16x2048x64_S2x16x2048x64_S2x16x2048x2048_3_3_2_2_01_01 64 rfl rfl k
  have el : dot_S2x16x2048x64_S2x16x2048x64_S2x16x2048x2048_3_3_2_2_01_01.lhsIdx i ((ValueIdx.contrEquiv1 dot_S2x16x2048x64_S2x16x2048x64_S2x16x2048x2048_3_3_2_2_01_01 64 rfl rfl).symm k) = Read.lidx_main_v18 i k :=
    funext fun a => Fin.ext (by
      match a with
      | ⟨0, _⟩ => exact Read.lhs_main_v18_0 _ _
      | ⟨1, _⟩ => exact Read.lhs_main_v18_1 _ _
      | ⟨2, _⟩ => exact Read.lhs_main_v18_2 _ _
      | ⟨3, _⟩ => exact (Read.lhs_main_v18_3 _ _).trans hk)
  have er : dot_S2x16x2048x64_S2x16x2048x64_S2x16x2048x2048_3_3_2_2_01_01.rhsIdx i ((ValueIdx.contrEquiv1 dot_S2x16x2048x64_S2x16x2048x64_S2x16x2048x2048_3_3_2_2_01_01 64 rfl rfl).symm k) = Read.ridx_main_v18 i k :=
    funext fun a => Fin.ext (by
      match a with
      | ⟨0, _⟩ => exact Read.rhs_main_v18_0 _ _
      | ⟨1, _⟩ => exact Read.rhs_main_v18_1 _ _
      | ⟨2, _⟩ => exact Read.rhs_main_v18_2 _ _
      | ⟨3, _⟩ => exact (Read.rhs_main_v18_3 _ _).trans hk)
  rw [el, er]

theorem out_apply (P : FVec Ideal S2x16x2048x2048 .f32) (V : FVec Ideal S2x16x2048x64 .f32)
    (i : S2x16x2048x64.Idx) :
    Host.dotGeneral (F := Ideal) dot_S2x16x2048x2048_S2x16x2048x64_S2x16x2048x64_3_2_2_3_01_01 none P V i
      = ∑ k : Fin 2048, P (Read.lidx_main_v24 i k) * V (Read.ridx_main_v24 i k) := by
  simp only [Host.dotGeneral]
  rw [Ideal.dotGeneral_apply, ← Equiv.sum_comp (ValueIdx.contrEquiv1 dot_S2x16x2048x2048_S2x16x2048x64_S2x16x2048x64_3_2_2_3_01_01 2048 rfl rfl).symm]
  refine Finset.sum_congr rfl fun k _ => ?_
  have hk := ValueIdx.contrEquiv1_symm_val dot_S2x16x2048x2048_S2x16x2048x64_S2x16x2048x64_3_2_2_3_01_01 2048 rfl rfl k
  have el : dot_S2x16x2048x2048_S2x16x2048x64_S2x16x2048x64_3_2_2_3_01_01.lhsIdx i ((ValueIdx.contrEquiv1 dot_S2x16x2048x2048_S2x16x2048x64_S2x16x2048x64_3_2_2_3_01_01 2048 rfl rfl).symm k) = Read.lidx_main_v24 i k :=
    funext fun a => Fin.ext (by
      match a with
      | ⟨0, _⟩ => exact Read.lhs_main_v24_0 _ _
      | ⟨1, _⟩ => exact Read.lhs_main_v24_1 _ _
      | ⟨2, _⟩ => exact Read.lhs_main_v24_2 _ _
      | ⟨3, _⟩ => exact (Read.lhs_main_v24_3 _ _).trans hk)
  have er : dot_S2x16x2048x2048_S2x16x2048x64_S2x16x2048x64_3_2_2_3_01_01.rhsIdx i ((ValueIdx.contrEquiv1 dot_S2x16x2048x2048_S2x16x2048x64_S2x16x2048x64_3_2_2_3_01_01 2048 rfl rfl).symm k) = Read.ridx_main_v24 i k :=
    funext fun a => Fin.ext (by
      match a with
      | ⟨0, _⟩ => exact Read.rhs_main_v24_0 _ _
      | ⟨1, _⟩ => exact Read.rhs_main_v24_1 _ _
      | ⟨2, _⟩ => exact (Read.rhs_main_v24_2 _ _).trans hk
      | ⟨3, _⟩ => exact Read.rhs_main_v24_3 _ _)
  rw [el, er]

/-! ## The attention: `∑ k, sin (30 · ((q · k) / 8)) · v` -/

theorem att_eq (Q K V : FVec Ideal S2x16x2048x64 .f32) :
    Host.dotGeneral (F := Ideal) dot_S2x16x2048x2048_S2x16x2048x64_S2x16x2048x64_3_2_2_3_01_01 none
      (Host.sin (mulf (broadcastInDim S2x16x2048x2048 ![] bcast_S_S2x16x2048x2048 (constant (F := Ideal) S_ .f32 0x41F00000#32))
        (Host.divf (Host.dotGeneral (F := Ideal) dot_S2x16x2048x64_S2x16x2048x64_S2x16x2048x2048_3_3_2_2_01_01 none Q K)
          (broadcastInDim S2x16x2048x2048 ![] bcast_S_S2x16x2048x2048 (constant (F := Ideal) S_ .f32 0x41000000#32)))))
      V = refattG Q K V := by
  funext i
  rw [out_apply]
  unfold refattG refattAt
  refine Finset.sum_congr rfl fun k _ => ?_
  have hv : Read.ridx_main_v24 i k
      = ix4 (n0 := 2) (n1 := 16) (n2 := 2048) (n3 := 64) ⟨(i 0).val, (i 0).isLt⟩ ⟨(i 1).val, (i 1).isLt⟩ k ⟨(i 3).val, (i 3).isLt⟩ :=
    funext fun a => by
      match a with
      | ⟨0, _⟩ => rfl
      | ⟨1, _⟩ => rfl
      | ⟨2, _⟩ => rfl
      | ⟨3, _⟩ => rfl
  rw [hv]
  refine congrArg (· * V _) ?_
  show FloatOps.hostUnary .sin (FloatOps.mulf
      (broadcastInDim S2x16x2048x2048 ![] bcast_S_S2x16x2048x2048 (constant (F := Ideal) S_ .f32 0x41F00000#32) (Read.lidx_main_v24 i k))
      (FloatOps.hostDivf (Host.dotGeneral (F := Ideal) dot_S2x16x2048x64_S2x16x2048x64_S2x16x2048x2048_3_3_2_2_01_01 none Q K (Read.lidx_main_v24 i k))
        (broadcastInDim S2x16x2048x2048 ![] bcast_S_S2x16x2048x2048 (constant (F := Ideal) S_ .f32 0x41000000#32) (Read.lidx_main_v24 i k)))) = _
  rw [Ideal.hostUnary_sin_def, Ideal.mulf_def, Ideal.hostDivf_def, scores_apply,
    broadcastInDim_apply _ bcast_S_S2x16x2048x2048 (constant (F := Ideal) S_ .f32 0x41F00000#32) (Read.lidx_main_v24 i k) ix0 (fun a => a.elim0),
    broadcastInDim_apply _ bcast_S_S2x16x2048x2048 (constant (F := Ideal) S_ .f32 0x41000000#32) (Read.lidx_main_v24 i k) ix0 (fun a => a.elim0),
    constant_apply, constant_apply]
  refine congrArg (fun t => Ideal.sin (c30 * Ideal.div t c8)) (Finset.sum_congr rfl fun j _ => ?_)
  have hq : Read.lidx_main_v18 (Read.lidx_main_v24 i k) j
      = ix4 (n0 := 2) (n1 := 16) (n2 := 2048) (n3 := 64) ⟨(i 0).val, (i 0).isLt⟩ ⟨(i 1).val, (i 1).isLt⟩ ⟨(i 2).val, (i 2).isLt⟩ j :=
    funext fun a => by
      match a with
      | ⟨0, _⟩ => rfl
      | ⟨1, _⟩ => rfl
      | ⟨2, _⟩ => rfl
      | ⟨3, _⟩ => rfl
  have hkk : Read.ridx_main_v18 (Read.lidx_main_v24 i k) j
      = ix4 (n0 := 2) (n1 := 16) (n2 := 2048) (n3 := 64) ⟨(i 0).val, (i 0).isLt⟩ ⟨(i 1).val, (i 1).isLt⟩ k j :=
    funext fun a => by
      match a with
      | ⟨0, _⟩ => rfl
      | ⟨1, _⟩ => rfl
      | ⟨2, _⟩ => rfl
      | ⟨3, _⟩ => rfl
  rw [hq, hkk]

/-! ## The head split and the merge are the specification's, and the whole layer -/

theorem heads_eq (X : (⟨S2x2048x1024, .f32⟩ : BufTy).Contents (Elt Ideal)) (W : (⟨S1024x1024, .f32⟩ : BufTy).Contents (Elt Ideal))
    (b : (⟨S1024, .f32⟩ : BufTy).Contents (Elt Ideal)) :
    Read.val_main_v5 (F := Ideal) X W b = heads (projG X W b) := by
  unfold Read.val_main_v5 Read.val_main_v4
  rw [proj_eq]
  rfl

theorem ref_eq (x0 : T3.Idx → EReal) (x1 : Wm.Idx → EReal) (x2 : B1.Idx → EReal) (x3 : Wm.Idx → EReal) (x4 : B1.Idx → EReal)
    (x5 : Wm.Idx → EReal) (x6 : B1.Idx → EReal) (x7 : Wm.Idx → EReal) (x8 : B1.Idx → EReal) :
    Cert.ReferenceIdeal.Read.val_main_v30 (F := Ideal) x0 x1 x2 x3 x4 x5 x6 x7 x8 = model x0 x1 x2 x3 x4 x5 x6 x7 x8 := by
  have e5 : Read.val_main_v5 (F := Ideal) x0 x1 x2 = heads (projG x0 x1 x2) := heads_eq x0 x1 x2
  have e11 : Read.val_main_v11 (F := Ideal) x0 x3 x4 = heads (projG x0 x3 x4) := heads_eq x0 x3 x4
  have e17 : Read.val_main_v17 (F := Ideal) x0 x5 x6 = heads (projG x0 x5 x6) := heads_eq x0 x5 x6
  have e24 : Read.val_main_v24 (F := Ideal) x0 x1 x2 x3 x4 x5 x6
      = refattG (heads (projG x0 x1 x2)) (heads (projG x0 x3 x4)) (heads (projG x0 x5 x6)) := by
    unfold Read.val_main_v24 Read.val_main_v23 Read.val_main_v22 Read.val_main_v21 Read.val_main_v20 Read.val_main_v19
      Read.val_main_v18 Read.val_main_cst Read.val_main_cst_0
    rw [e5, e11, e17]
    exact att_eq _ _ _
  have e26 : Read.val_main_v26 (F := Ideal) x0 x1 x2 x3 x4 x5 x6
      = merge (refattG (heads (projG x0 x1 x2)) (heads (projG x0 x3 x4)) (heads (projG x0 x5 x6))) := by
    unfold Read.val_main_v26 Read.val_main_v25
    rw [e24]
    rfl
  have e30 : Read.val_main_v30 (F := Ideal) x0 x1 x2 x3 x4 x5 x6 x7 x8
      = Read.val_main_v3 (F := Ideal) (Read.val_main_v26 (F := Ideal) x0 x1 x2 x3 x4 x5 x6) x7 x8 := rfl
  rw [e30, proj_eq, e26]
  rfl

end Cert.ReferenceIdeal.RefValue

end
-- ==== Proof.lean ====
/-
  The certificate of an unnormalised sine-attention layer: four linear projections `y = x · Wᵀ + b` around
  `sin (30 · (q · k) / 8) · v` on 16 heads of width 64, tokens `[2, 2048, 1024]`.

  The kernel program runs five pipelined regions (three projections on 4096 rows, the attention on 32 flattened
  batch·head slices with the single scale 3.75, the output projection) between reshapes and transposes; the reference
  is one chain of jnp operations that keeps the batch axis and divides by 8 before multiplying by 30.  At the extended
  reals every change of float format is the identity and every matrix product is a plain finite sum, so the two
  programs differ only in how the same arrays are laid out and in `y · 3.75` against `30 · (y / 8)`, which agree on
  every extended real.  Both results are `Spec.model` of the nine arguments:

  * the kernel program's result buffer is named by the fold through @main's segments (`Gen.Named.run`), read back
    region by region and stretch by stretch to `Spec.kform` (`Fold.result`: each region's output array is the
    whole-array function its grid points' blocks tile), and `Spec.kform = Spec.model` is array algebra
    (`Spec.kform_eq_model`: projections and attention commute with row-major reshapes);
  * the reference's run ends at its operations' composed term, which is `Spec.model` (`RefValue.ref_eq`).

  The three frames are the runs with the results dropped; the idealization rewrote nothing, so `preserves` is `True`.
-/
import proofs.«110700_j28905129902577_1_alg».proof.Defs
import proofs.«110700_j28905129902577_1_alg».proof.Proof.Gen.Kernel
import proofs.«110700_j28905129902577_1_alg».proof.Proof.Gen.Kernel.Skeleton
import proofs.«110700_j28905129902577_1_alg».proof.Proof.Gen.Kernel.Launch
import proofs.«110700_j28905129902577_1_alg».proof.Proof.Gen.Kernel.Points
import proofs.«110700_j28905129902577_1_alg».proof.Proof.Gen.Kernel.Frame
import proofs.«110700_j28905129902577_1_alg».proof.Proof.Gen.KernelIdeal
import proofs.«110700_j28905129902577_1_alg».proof.Proof.Gen.KernelIdeal.Skeleton
import proofs.«110700_j28905129902577_1_alg».proof.Proof.Gen.KernelIdeal.Launch
import proofs.«110700_j28905129902577_1_alg».proof.Proof.Gen.KernelIdeal.Points
import proofs.«110700_j28905129902577_1_alg».proof.Proof.Gen.KernelIdeal.Frame
import proofs.«110700_j28905129902577_1_alg».proof.Proof.Gen.ReferenceIdeal
import proofs.«110700_j28905129902577_1_alg».proof.Proof.Gen.ReferenceIdeal.Run
import proofs.«110700_j28905129902577_1_alg».proof.Proof.Gen.ReferenceIdeal.Read
import proofs.«110700_j28905129902577_1_alg».proof.Proof.Gen.Pre_finite_inputs
import proofs.«110700_j28905129902577_1_alg».proof.Proof.Spec
import proofs.«110700_j28905129902577_1_alg».proof.Proof.Bridge
import proofs.«110700_j28905129902577_1_alg».proof.Proof.KernelRun
import proofs.«110700_j28905129902577_1_alg».proof.Proof.KernelFold
import proofs.«110700_j28905129902577_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments both programs end, the result of each `Spec.model` of the
    kernel side's arguments. -/
theorem algebraic : Cert.algebraic_KernelIdeal_ReferenceIdeal := by
  intro m ρ m' ρ' _ hagree
  refine ⟨fun c => Cert.Spec.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans ((Cert.KernelIdeal.Fold.result m ρ c).trans (Cert.Spec.kform_eq_model _ _ _ _ _ _ _ _ _)), (h c).2⟩)
      (Cert.KernelIdeal.Gen.Named.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.ReferenceIdeal.Read.val_main_v30_eq (F := Ideal) _ _ _ _ _ _ _ _ _).trans
      (Cert.ReferenceIdeal.RefValue.ref_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
